-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192x32 : Shape := ⟨3, ![64, 8192, 32]⟩
abbrev S64x16 : Shape := ⟨2, ![64, 16]⟩
abbrev S16x32 : Shape := ⟨2, ![16, 32]⟩
abbrev S16x16 : Shape := ⟨2, ![16, 16]⟩
abbrev S32x16 : Shape := ⟨2, ![32, 16]⟩
abbrev S16 : Shape := ⟨1, ![16]⟩
abbrev S16x48 : Shape := ⟨2, ![16, 48]⟩
abbrev S_ : Shape := ⟨0, ![]⟩

class Facts : Prop where
  bcast_S_S64x8192x32 : S_.BroadcastsInDim S64x8192x32 (![] : Fin 0 → Fin S64x8192x32.rank)
  reducesTo_S64x8192x32_S_d0_1_2 : S64x8192x32.ReducesTo [0, 1, 2] S_
  h_S_ : 0 < S_.numel
  bcast_S_S64x16 : S_.BroadcastsInDim S64x16 (![] : Fin 0 → Fin S64x16.rank)
  reducesTo_S64x16_S_d0_1 : S64x16.ReducesTo [0, 1] S_
  bcast_S_S16x32 : S_.BroadcastsInDim S16x32 (![] : Fin 0 → Fin S16x32.rank)
  reducesTo_S16x32_S_d0_1 : S16x32.ReducesTo [0, 1] S_
  bcast_S_S16x16 : S_.BroadcastsInDim S16x16 (![] : Fin 0 → Fin S16x16.rank)
  reducesTo_S16x16_S_d0_1 : S16x16.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x48 : S_.BroadcastsInDim S16x48 (![] : Fin 0 → Fin S16x48.rank)
  reducesTo_S16x48_S_d0_1 : S16x48.ReducesTo [0, 1] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg7 : FVec F S16x16 .f32) (main_arg8 : FVec F S16 .f32) (main_arg9 : FVec F S16x48 .f32) (main_arg10 : FVec F S16 .f32) (main_v33 : IVec S_ 1) : IVec S_ 1 :=
  let main_v34 : FVec F S16x16 .f32 := Host.absf main_arg7
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x48 .f32 := Host.absf main_arg9
  let main_cst_16 : FVec F S_ .f32 := constant S_ .f32 0x7F800000#32
  let main_v45 : FVec F S16x48 .f32 := broadcastInDim S16x48 ![] bcast_S_S16x48 main_cst_16
  let main_v46 : IVec S16x48 1 := cmpf .olt main_v44 main_v45
  let main_c_17 : IVec S_ 1 := constantI S_ 1 1#1
  let main_v47 : IVec S_ 1 := (fun x v => Host.reduce IntOp.andi x v reducesTo_S16x48_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg4 : FVec F S32x16 .f32) (main_arg5 : FVec F S16x32 .f32) (main_arg6 : FVec F S16 .f32) (main_arg7 : FVec F S16x16 .f32) (main_arg8 : FVec F S16 .f32) (main_arg9 : FVec F S16x48 .f32) (main_arg10 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16x32 .f32 := Host.absf main_arg5
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S64x8192x32 .f32) (main_arg1 : FVec F S64x16 .f32) (main_arg2 : FVec F S16x32 .f32) (main_arg3 : FVec F S16x16 .f32) (main_arg4 : FVec F S32x16 .f32) (main_arg5 : FVec F S16x32 .f32) (main_arg6 : FVec F S16 .f32) (main_arg7 : FVec F S16x16 .f32) (main_arg8 : FVec F S16 .f32) (main_arg9 : FVec F S16x48 .f32) (main_arg10 : FVec F S16 .f32) : IVec S_ 1 :=
  let main_v0 : FVec F S64x8192x32 .f32 := Host.absf main_arg0
  let main_cst : FVec F S_ .f32 := constant S_ .f32 0x7F800000#32
  let main_v1 : FVec F S64x8192x32 .f32 := broadcastInDim S64x8192x32 ![] bcast_S_S64x8192x32 main_cst
  let main_v2 : IVec S64x8192x32 1 := cmpf .olt main_v0 main_v1
  let main_c : IVec S_ 1 := constantI S_ 1 1#1
  let main_v3 : IVec S_ 1 := (fun x v => Host.reduce IntOp.andi x v reducesTo_S64x8192x32_S_d0_1_2 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S16x32 .f32 := Host.absf main_arg2
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_arg5 main_arg6 main_arg7 main_arg8 main_arg9 main_arg10 main_v13 main_v16
-- ==== Kernel.lean ====
abbrev S64x8192x32 : Shape := ⟨3, ![64, 8192, 32]⟩
abbrev S64x16 : Shape := ⟨2, ![64, 16]⟩
abbrev S16x32 : Shape := ⟨2, ![16, 32]⟩
abbrev S16x16 : Shape := ⟨2, ![16, 16]⟩
abbrev S32x16 : Shape := ⟨2, ![32, 16]⟩
abbrev S16 : Shape := ⟨1, ![16]⟩
abbrev S16x48 : Shape := ⟨2, ![16, 48]⟩
abbrev S8x2048x32 : Shape := ⟨3, ![8, 2048, 32]⟩
abbrev S8x16 : Shape := ⟨2, ![8, 16]⟩
abbrev S16384x32 : Shape := ⟨2, ![16384, 32]⟩
abbrev S16384x16 : Shape := ⟨2, ![16384, 16]⟩
abbrev S8x2048x16 : Shape := ⟨3, ![8, 2048, 16]⟩
abbrev S1x16 : Shape := ⟨2, ![1, 16]⟩
abbrev S8x1x16 : Shape := ⟨3, ![8, 1, 16]⟩
abbrev S1x1x16 : Shape := ⟨3, ![1, 1, 16]⟩

abbrev nBuf : Space → Nat
  | .hbm => 13
  | .vmem => 17
  | .smem => 0
  | _ => 0

abbrev bufTy : (tb : Table) → Fin (tcTables nBuf tb) → BufTy
  | .hbm, ⟨0, _⟩ => ⟨S64x8192x32, .f32⟩
  | .hbm, ⟨1, _⟩ => ⟨S64x16, .f32⟩
  | .hbm, ⟨2, _⟩ => ⟨S16x32, .f32⟩
  | .hbm, ⟨3, _⟩ => ⟨S16x16, .f32⟩
  | .hbm, ⟨4, _⟩ => ⟨S32x16, .f32⟩
  | .hbm, ⟨5, _⟩ => ⟨S16x32, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16x48, .f32⟩
  | .hbm, ⟨10, _⟩ => ⟨S16, .f32⟩
  | .hbm, ⟨11, _⟩ => ⟨S64x8192x32, .f32⟩
  | .hbm, ⟨12, _⟩ => ⟨S64x16, .f32⟩
  | .local _ .vmem, ⟨0, _⟩ => ⟨S8x2048x32, .f32⟩
  | .local _ .vmem, ⟨1, _⟩ => ⟨S8x2048x32, .f32⟩
  | .local _ .vmem, ⟨2, _⟩ => ⟨S8x16, .f32⟩
  | .local _ .vmem, ⟨3, _⟩ => ⟨S8x16, .f32⟩
  | .local _ .vmem, ⟨4, _⟩ => ⟨S16x32, .f32⟩
  | .local _ .vmem, ⟨5, _⟩ => ⟨S16x16, .f32⟩
  | .local _ .vmem, ⟨6, _⟩ => ⟨S32x16, .f32⟩
  | .local _ .vmem, ⟨7, _⟩ => ⟨S16x32, .f32⟩
  | .local _ .vmem, ⟨8, _⟩ => ⟨S16, .f32⟩
  | .local _ .vmem, ⟨9, _⟩ => ⟨S16x16, .f32⟩
  | .local _ .vmem, ⟨10, _⟩ => ⟨S16, .f32⟩
  | .local _ .vmem, ⟨11, _⟩ => ⟨S16x48, .f32⟩
  | .local _ .vmem, ⟨12, _⟩ => ⟨S16, .f32⟩
  | .local _ .vmem, ⟨13, _⟩ => ⟨S8x2048x32, .f32⟩
  | .local _ .vmem, ⟨14, _⟩ => ⟨S8x2048x32, .f32⟩
  | .local _ .vmem, ⟨15, _⟩ => ⟨S8x16, .f32⟩
  | .local _ .vmem, ⟨16, _⟩ => ⟨S8x16, .f32⟩
  | _, _ => ⟨S64x8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c3_i32 : BitVec 32 := 3#32
  let v70 : BitVec 1 := Scalar.cmpi .eq arg1 c3_i32
  let v71 : BitVec 32 := Scalar.extui v70
  let c0_i32 : BitVec 32 := 0#32
  let v72 : BitVec 1 := Scalar.cmpi .ne v71 c0_i32
  v72

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x48 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S8x2048x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  inb_S8x2048x32_S8x2048x32_0_0_0 : ∀ a, (![0, 0, 0] : Fin 3 → Nat) a + S8x2048x32.size a ≤ S8x2048x32.size a
  h_S8x2048x32 : 0 < S8x2048x32.numel
  inb_S8x16_S8x16_0_0 : ∀ a, (![0, 0] : Fin 2 → Nat) a + S8x16.size a ≤ S8x16.size a
  h_S8x16 : 0 < S8x16.numel
  shapeCasts_S8x2048x32_S16384x32 : S8x2048x32.ShapeCasts S16384x32
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S16x16_S16x16_0_0 : ∀ a, (![0, 0] : Fin 2 → Nat) a + S16x16.size a ≤ S16x16.size a
  h_S16x16 : 0 < S16x16.numel
  inb_S32x16_S32x16_0_0 : ∀ a, (![0, 0] : Fin 2 → Nat) a + S32x16.size a ≤ S32x16.size a
  h_S32x16 : 0 < S32x16.numel
  inb_S16x48_S16x48_0_0 : ∀ a, (![0, 0] : Fin 2 → Nat) a + S16x48.size a ≤ S16x48.size a
  h_S16x48 : 0 < S16x48.numel
  inb_S16_S16_0 : ∀ a, (![0] : Fin 1 → Nat) a + S16.size a ≤ S16.size a
  h_S16 : 0 < S16.numel
  slices_S16x48_o0_0_S16x32 : S16x48.Slices ![0, 0] S16x32
  slices_S16x48_o0_32_S16x16 : S16x48.Slices ![0, 32] S16x16
  transposes_S16x32_p1_0_S32x16 : S16x32.Transposes [1, 0] S32x16
  shapeCasts_S16384x16_S8x2048x16 : S16384x16.ShapeCasts S8x2048x16
  transposes_S16x16_p1_0_S16x16 : S16x16.Transposes [1, 0] S16x16
  shapeCasts_S16_S1x16 : S16.ShapeCasts S1x16
  broadcasts_S1x16_S8x16 : S1x16.Broadcasts S8x16
  shapeCasts_S8x16_S8x1x16 : S8x16.ShapeCasts S8x1x16
  broadcasts_S8x1x16_S8x2048x16 : S8x1x16.Broadcasts S8x2048x16
  shapeCasts_S16_S1x1x16 : S16.ShapeCasts S1x1x16
  broadcasts_S1x1x16_S8x2048x16 : S1x1x16.Broadcasts S8x2048x16
  shapeCasts_S8x2048x16_S16384x16 : S8x2048x16.ShapeCasts S16384x16
  transposes_S32x16_p1_0_S16x32 : S32x16.Transposes [1, 0] S16x32
  shapeCasts_S16384x32_S8x2048x32 : S16384x32.ShapeCasts S8x2048x32
  slices_S8x2048x16_o0_2047_0_S8x1x16 : S8x2048x16.Slices ![0, 2047, 0] S8x1x16
  shapeCasts_S8x1x16_S8x16 : S8x1x16.ShapeCasts S8x16
  dot_S16384x32_S32x16_S16384x16_1_0_0_1_n_n_wf : DotDims.WF S16384x32 S32x16 S16384x16 [1] [0] [0] [1] [] []
  dot_S8x16_S16x16_S8x16_1_0_0_1_n_n_wf : DotDims.WF S8x16 S16x16 S8x16 [1] [0] [0] [1] [] []
  dot_S16384x16_S16x32_S16384x32_1_0_0_1_n_n_wf : DotDims.WF S16384x16 S16x32 S16384x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x32.size a ≤ S64x8192x32.size a
  hwx0_0 : ∀ i : grid0.Coords, EltTy.bits .f32 = 32 ∨ (Rect.block (s := S64x8192x32) S8x2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16.size a ≤ S64x16.size a
  hwx0_1 : ∀ i : grid0.Coords, EltTy.bits .f32 = 32 ∨ (Rect.block (s := S64x16) S8x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x32.size a ≤ S16x32.size a
  hwx0_2 : ∀ i : grid0.Coords, EltTy.bits .f32 = 32 ∨ (Rect.block (s := S16x32) S16x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x16.size a ≤ S32x16.size a
  hwx0_4 : ∀ i : grid0.Coords, EltTy.bits .f32 = 32 ∨ (Rect.block (s := S32x16) S32x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x32.size a ≤ S16x32.size a
  hwx0_5 : ∀ i : grid0.Coords, EltTy.bits .f32 = 32 ∨ (Rect.block (s := S16x32) S16x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x16.size a ≤ S16x16.size a
  hwx0_7 : ∀ i : grid0.Coords, EltTy.bits .f32 = 32 ∨ (Rect.block (s := S16x16) S16x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16.size a ≤ S16.size a
  hwx0_8 : ∀ i : grid0.Coords, EltTy.bits .f32 = 32 ∨ (Rect.block (s := S16) S16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x48.size a ≤ S16x48.size a
  hwx0_9 : ∀ i : grid0.Coords, EltTy.bits .f32 = 32 ∨ (Rect.block (s := S16x48) S16x48.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16.size a ≤ S16.size a
  hwx0_10 : ∀ i : grid0.Coords, EltTy.bits .f32 = 32 ∨ (Rect.block (s := S16) S16.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x2048x32.size a ≤ S64x8192x32.size a
  hwx0_11 : ∀ i : grid0.Coords, EltTy.bits .f32 = 32 ∨ (Rect.block (s := S64x8192x32) S8x2048x32.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S8x16.size a ≤ S64x16.size a
  hwx0_12 : ∀ i : grid0.Coords, EltTy.bits .f32 = 32 ∨ (Rect.block (s := S64x16) S8x16.size (cc0_transform_12 i) (hinb0_12 i)).WholeWords (EltTy.packing .f32)

variable [Facts₀]

def dot_S16384x32_S32x16_S16384x16_1_0_0_1_n_n : DotDims S16384x32 S32x16 S16384x16 where
  lhsContracting := [1]
  rhsContracting := [0]
  lhsNonContracting := [0]
  rhsNonContracting := [1]
  lhsBatch := []
  rhsBatch := []
  wf := dot_S16384x32_S32x16_S16384x16_1_0_0_1_n_n_wf
def dot_S8x16_S16x16_S8x16_1_0_0_1_n_n : DotDims S8x16 S16x16 S8x16 where
  lhsContracting := [1]
  rhsContracting := [0]
  lhsNonContracting := [0]
  rhsNonContracting := [1]
  lhsBatch := []
  rhsBatch := []
  wf := dot_S8x16_S16x16_S8x16_1_0_0_1_n_n_wf
def dot_S16384x16_S16x32_S16384x32_1_0_0_1_n_n : DotDims S16384x16 S16x32 S16384x32 where
  lhsContracting := [1]
  rhsContracting := [0]
  lhsNonContracting := [0]
  rhsNonContracting := [1]
  lhsBatch := []
  rhsBatch := []
  wf := dot_S16384x16_S16x32_S16384x32_1_0_0_1_n_n_wf

abbrev win0_0 : Pipeline.Window sig grid0 :=
  Pipeline.Window.ofSpec (Memref.whole main_arg0) S8x2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S16x48.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_0) S8x2048x32.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_1) S8x16.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond1 i == 1#1) | ⟨_ + 13, h⟩ => absurd h (Nat.not_lt.2 (Nat.le_add_left _ _))

class Facts : Prop extends Facts₀ where

variable [Facts]
-- ==== ReferenceIdeal.lean ====
abbrev S64x8192x32 : Shape := ⟨3, ![64, 8192, 32]⟩
abbrev S64x16 : Shape := ⟨2, ![64, 16]⟩
abbrev S16x32 : Shape := ⟨2, ![16, 32]⟩
abbrev S16x16 : Shape := ⟨2, ![16, 16]⟩
abbrev S32x16 : Shape := ⟨2, ![32, 16]⟩
abbrev S16 : Shape := ⟨1, ![16]⟩
abbrev S16x48 : Shape := ⟨2, ![16, 48]⟩
abbrev S64x8192x16 : Shape := ⟨3, ![64, 8192, 16]⟩
abbrev S1x16 : Shape := ⟨2, ![1, 16]⟩
abbrev S64x1x16 : Shape := ⟨3, ![64, 1, 16]⟩
abbrev S_ : Shape := ⟨0, ![]⟩
abbrev S1x1x16 : Shape := ⟨3, ![1, 1, 16]⟩

abbrev nBuf : Space → Nat
  | .hbm => 74
  | .vmem => 0
  | .smem => 0
  | _ => 0

abbrev bufTy : (tb : Table) → Fin (tcTables nBuf tb) → BufTy
  | .hbm, ⟨0, _⟩ => ⟨S64x8192x32, .f32⟩
  | .hbm, ⟨1, _⟩ => ⟨S64x16, .f32⟩
  | .hbm, ⟨2, _⟩ => ⟨S16x32, .f32⟩
  | .hbm, ⟨3, _⟩ => ⟨S16x16, .f32⟩
  | .hbm, ⟨4, _⟩ => ⟨S32x16, .f32⟩
  | .hbm, ⟨5, _⟩ => ⟨S16x32, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16x48, .f32⟩
  | .hbm, ⟨10, _⟩ => ⟨S16, .f32⟩
  | .hbm, ⟨11, _⟩ => ⟨S64x8192x16, .f32⟩
  | .hbm, ⟨12, _⟩ => ⟨S16x32, .f32⟩
  | .hbm, ⟨13, _⟩ => ⟨S64x8192x16, .f32⟩
  | .hbm, ⟨14, _⟩ => ⟨S16x16, .f32⟩
  | .hbm, ⟨15, _⟩ => ⟨S16x16, .f32⟩
  | .hbm, ⟨16, _⟩ => ⟨S64x16, .f32⟩
  | .hbm, ⟨17, _⟩ => ⟨S1x16, .f32⟩
  | .hbm, ⟨18, _⟩ => ⟨S64x16, .f32⟩
  | .hbm, ⟨19, _⟩ => ⟨S64x16, .f32⟩
  | .hbm, ⟨20, _⟩ => ⟨S64x1x16, .f32⟩
  | .hbm, ⟨21, _⟩ => ⟨S64x8192x16, .f32⟩
  | .hbm, ⟨22, _⟩ => ⟨S64x8192x16, .f32⟩
  | .hbm, ⟨23, _⟩ => ⟨S64x8192x16, .f32⟩
  | .hbm, ⟨24, _⟩ => ⟨S64x8192x16, .f32⟩
  | .hbm, ⟨25, _⟩ => ⟨S_, .f32⟩
  | .hbm, ⟨26, _⟩ => ⟨S64x8192x16, .f32⟩
  | .hbm, ⟨27, _⟩ => ⟨S64x8192x16, .f32⟩
  | .hbm, ⟨28, _⟩ => ⟨S_, .f32⟩
  | .hbm, ⟨29, _⟩ => ⟨S64x8192x16, .f32⟩
  | .hbm, ⟨30, _⟩ => ⟨S64x8192x16, .f32⟩
  | .hbm, ⟨31, _⟩ => ⟨S_, .f32⟩
  | .hbm, ⟨32, _⟩ => ⟨S64x8192x16, .f32⟩
  | .hbm, ⟨33, _⟩ => ⟨S64x8192x16, .f32⟩
  | .hbm, ⟨34, _⟩ => ⟨S64x8192x16, .f32⟩
  | .hbm, ⟨35, _⟩ => ⟨S16x16, .f32⟩
  | .hbm, ⟨36, _⟩ => ⟨S64x16, .f32⟩
  | .hbm, ⟨37, _⟩ => ⟨S64x16, .f32⟩
  | .hbm, ⟨38, _⟩ => ⟨S64x1x16, .f32⟩
  | .hbm, ⟨39, _⟩ => ⟨S64x8192x16, .f32⟩
  | .hbm, ⟨40, _⟩ => ⟨S64x8192x16, .f32⟩
  | .hbm, ⟨41, _⟩ => ⟨S64x8192x16, .f32⟩
  | .hbm, ⟨42, _⟩ => ⟨S64x8192x16, .f32⟩
  | .hbm, ⟨43, _⟩ => ⟨S1x1x16, .f32⟩
  | .hbm, ⟨44, _⟩ => ⟨S64x8192x16, .f32⟩
  | .hbm, ⟨45, _⟩ => ⟨S64x8192x16, .f32⟩
  | .hbm, ⟨46, _⟩ => ⟨S64x8192x16, .f32⟩
  | .hbm, ⟨47, _⟩ => ⟨S64x8192x16, .f32⟩
  | .hbm, ⟨48, _⟩ => ⟨S_, .f32⟩
  | .hbm, ⟨49, _⟩ => ⟨S64x8192x16, .f32⟩
  | .hbm, ⟨50, _⟩ => ⟨S64x8192x16, .f32⟩
  | .hbm, ⟨51, _⟩ => ⟨S_, .f32⟩
  | .hbm, ⟨52, _⟩ => ⟨S64x8192x16, .f32⟩
  | .hbm, ⟨53, _⟩ => ⟨S64x8192x16, .f32⟩
  | .hbm, ⟨54, _⟩ => ⟨S16x16, .f32⟩
  | .hbm, ⟨55, _⟩ => ⟨S64x16, .f32⟩
  | .hbm, ⟨56, _⟩ => ⟨S1x16, .f32⟩
  | .hbm, ⟨57, _⟩ => ⟨S64x16, .f32⟩
  | .hbm, ⟨58, _⟩ => ⟨S64x16, .f32⟩
  | .hbm, ⟨59, _⟩ => ⟨S64x16, .f32⟩
  | .hbm, ⟨60, _⟩ => ⟨S64x16, .f32⟩
  | .hbm, ⟨61, _⟩ => ⟨S_, .f32⟩
  | .hbm, ⟨62, _⟩ => ⟨S64x16, .f32⟩
  | .hbm, ⟨63, _⟩ => ⟨S64x16, .f32⟩
  | .hbm, ⟨64, _⟩ => ⟨S_, .f32⟩
  | .hbm, ⟨65, _⟩ => ⟨S64x16, .f32⟩
  | .hbm, ⟨66, _⟩ => ⟨S64x16, .f32⟩
  | .hbm, ⟨67, _⟩ => ⟨S64x1x16, .f32⟩
  | .hbm, ⟨68, _⟩ => ⟨S64x8192x16, .f32⟩
  | .hbm, ⟨69, _⟩ => ⟨S64x8192x16, .f32⟩
  | .hbm, ⟨70, _⟩ => ⟨S64x8192x16, .f32⟩
  | .hbm, ⟨71, _⟩ => ⟨S64x8192x32, .f32⟩
  | .hbm, ⟨72, _⟩ => ⟨S64x1x16, .f32⟩
  | .hbm, ⟨73, _⟩ => ⟨S64x16, .f32⟩
  | _, _ => ⟨S64x8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]

class Facts₀ : Prop where
  slices_S16x48_S16x32_0_0 : S16x48.Slices ![0, 0] S16x32
  slices_S16x48_S16x16_0_32 : S16x48.Slices ![0, 32] S16x16
  transposes_S16x16_S16x16_1_0 : S16x16.Transposes [1, 0] S16x16
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S64x16_S64x1x16_0_2 : S64x16.BroadcastsInDim S64x1x16 (![0, 2] : Fin 2 → Fin S64x1x16.rank)
  bcast_S64x1x16_S64x8192x16_0_1_2 : S64x1x16.BroadcastsInDim S64x8192x16 (![0, 1, 2] : Fin 3 → Fin S64x8192x16.rank)
  bcast_S_S64x8192x16 : S_.BroadcastsInDim S64x8192x16 (![] : Fin 0 → Fin S64x8192x16.rank)
  bcast_S16_S1x1x16_2 : S16.BroadcastsInDim S1x1x16 (![2] : Fin 1 → Fin S1x1x16.rank)
  bcast_S1x1x16_S64x8192x16_0_1_2 : S1x1x16.BroadcastsInDim S64x8192x16 (![0, 1, 2] : Fin 3 → Fin S64x8192x16.rank)
  bcast_S_S64x16 : S_.BroadcastsInDim S64x16 (![] : Fin 0 → Fin S64x16.rank)
  slices_S64x8192x16_S64x1x16_0_8191_0 : S64x8192x16.Slices ![0, 8191, 0] S64x1x16
  shapeCasts_S64x1x16_S64x16 : S64x1x16.ShapeCasts S64x16
  dot_S64x8192x32_S16x32_S64x8192x16_2_1_01_0_n_n_wf : DotDims.WF S64x8192x32 S16x32 S64x8192x16 [2] [1] [0, 1] [0] [] []
  dot_S64x16_S16x16_S64x16_1_0_0_1_n_n_wf : DotDims.WF S64x16 S16x16 S64x16 [1] [0] [0] [1] [] []
  dot_S64x8192x16_S32x16_S64x8192x32_2_1_01_0_n_n_wf : DotDims.WF S64x8192x16 S32x16 S64x8192x32 [2] [1] [0, 1] [0] [] []

variable [Facts₀]

def dot_S64x8192x32_S16x32_S64x8192x16_2_1_01_0_n_n : DotDims S64x8192x32 S16x32 S64x8192x16 where
  lhsContracting := [2]
  rhsContracting := [1]
  lhsNonContracting := [0, 1]
  rhsNonContracting := [0]
  lhsBatch := []
  rhsBatch := []
  wf := dot_S64x8192x32_S16x32_S64x8192x16_2_1_01_0_n_n_wf
def dot_S64x16_S16x16_S64x16_1_0_0_1_n_n : DotDims S64x16 S16x16 S64x16 where
  lhsContracting := [1]
  rhsContracting := [0]
  lhsNonContracting := [0]
  rhsNonContracting := [1]
  lhsBatch := []
  rhsBatch := []
  wf := dot_S64x16_S16x16_S64x16_1_0_0_1_n_n_wf
def dot_S64x8192x16_S32x16_S64x8192x32_2_1_01_0_n_n : DotDims S64x8192x16 S32x16 S64x8192x32 where
  lhsContracting := [2]
  rhsContracting := [1]
  lhsNonContracting := [0, 1]
  rhsNonContracting := [0]
  lhsBatch := []
  rhsBatch := []
  wf := dot_S64x8192x16_S32x16_S64x8192x32_2_1_01_0_n_n_wf

class Facts : Prop extends Facts₀ where

variable [Facts]
-- ==== Proof.Spec.lean ====
/-
  The mathematics both programs compute, one output element at a time, over the extended reals.

  Fix a batch row b and a time step t. Write xr for the row x[b, t, :] (32 entries) and pr for the row
  prev_state[b, :] (16 entries). For a state channel s the layer forms

      delta  = Σ_d xr d · W_in[s, d]
      ctx    = Σ_d xr d · W_dc[s, d]  +  ( Σ_k pr k · W_dc[s, 32 + k]  +  b_dc[s] )
      decay  = exp ( c · σ(ctx) )                      c the shared scale word (the float nearest −1/20)
      mix    = ( Σ_k pr k · W_s[s, k] ) · pr s
      gate_x = σ ( Σ_d xr d · W_gx[s, d] + b_gx[s] )
      gate_s = σ ( Σ_k pr k · W_gs[s, k] + b_gs[s] )
      h      = (delta + mix · decay) · gate_x · gate_s

  (the hidden value), and the output entry for feature r is  Σ_s h s · W_out[r, s].
  σ is the logistic function 1 / (1 + e^(−z)) with its limits 0 and 1 at −∞ and +∞.
  The value depends on the position (b, t) only through the two rows, which is what lets a tile of the
  arrays and the whole arrays be compared row by row. Every sum is written with the row factor on the left and
  the weight on the right, the order both programs multiply in, so no law of the extended reals is needed
  beyond reading each operation at an index.
-/
import Idealize.ShloMosaic.PureOps.Ideal
import Idealize.ShloMosaic.Lib.ValueIdx

noncomputable section

open scoped BigOperators

namespace Cert.GatedState

open Idealize.ShloMosaic Idealize.ShloMosaic.ValueIdx

/-- A matrix of extended reals with literal extents. -/
abbrev Mat (r c : Nat) : Type := (⟨2, ![r, c]⟩ : Shape).Idx → EReal
/-- A vector of extended reals with a literal extent. -/
abbrev Row (n : Nat) : Type := (⟨1, ![n]⟩ : Shape).Idx → EReal
/-- A rank-3 array of extended reals with literal extents. -/
abbrev Cube (a b c : Nat) : Type := (⟨3, ![a, b, c]⟩ : Shape).Idx → EReal

/-- The float word of 1.0 denotes the real number one. -/
theorem one_word : Ideal.ofBits .f32 0x3F800000#32 = 1 := by
  simp [Ideal.ofBits, Ideal.ieee, -EReal.coe_mul]; norm_num

/-- The logistic function written out with the word of 1.0 as numerator and summand, division and exponential being the
    extended reals' own: it is the logistic function. -/
theorem logistic_spelled (z : EReal) :
    Ideal.div (Ideal.ofBits .f32 0x3F800000#32) (Ideal.ofBits .f32 0x3F800000#32 + Ideal.exp (-z)) = Ideal.logistic z := by
  rw [one_word]; rfl

/-- Column d of the decay-control weight's first 32 columns (the part that multiplies x). -/
abbrev headCol (d : Fin 32) : Fin 48 := ⟨d.val, by have := d.isLt; omega⟩
/-- Column 32 + k of the decay-control weight (the part that multiplies the previous state). -/
abbrev tailCol (k : Fin 16) : Fin 48 := ⟨32 + k.val, by have := k.isLt; omega⟩

/-- The hidden value of channel s from a row of x and a row of the previous state. -/
def hidden (xr : Fin 32 → EReal) (pr : Fin 16 → EReal) (Win : Mat 16 32) (Ws : Mat 16 16) (Wgx : Mat 16 32) (bgx : Row 16)
    (Wgs : Mat 16 16) (bgs : Row 16) (Wdc : Mat 16 48) (bdc : Row 16) (s : Fin 16) : EReal :=
  ((∑ d : Fin 32, xr d * Win (ix2 s d))
      + ((∑ k : Fin 16, pr k * Ws (ix2 s k)) * pr s)
        * Ideal.exp (Ideal.ofBits .f32 0xBD4CCCCD#32
            * Ideal.logistic ((∑ d : Fin 32, xr d * Wdc (ix2 s (headCol d)))
                + ((∑ k : Fin 16, pr k * Wdc (ix2 s (tailCol k))) + bdc (ix1 s)))))
    * Ideal.logistic ((∑ d : Fin 32, xr d * Wgx (ix2 s d)) + bgx (ix1 s))
    * Ideal.logistic ((∑ k : Fin 16, pr k * Wgs (ix2 s k)) + bgs (ix1 s))

/-- The output entry of feature r: the hidden values against row r of the output projection. -/
def projected (xr : Fin 32 → EReal) (pr : Fin 16 → EReal) (Win : Mat 16 32) (Ws : Mat 16 16) (Wout : Mat 32 16) (Wgx : Mat 16 32)
    (bgx : Row 16) (Wgs : Mat 16 16) (bgs : Row 16) (Wdc : Mat 16 48) (bdc : Row 16) (r : Fin 32) : EReal :=
  ∑ s : Fin 16, hidden xr pr Win Ws Wgx bgx Wgs bgs Wdc bdc s * Wout (ix2 r s)

/-- Row (b, t) of a rank-3 array whose last axis has 32 entries. -/
abbrev rowOf {B T : Nat} (x : Cube B T 32) (b : Fin B) (t : Fin T) : Fin 32 → EReal := fun d => x (ix3 b t d)
/-- Row b of a matrix with 16 columns. -/
abbrev stateOf {B : Nat} (ps : Mat B 16) (b : Fin B) : Fin 16 → EReal := fun k => ps (ix2 b k)

/-- The last time step of the whole sequence. -/
abbrev lastStep : Fin 8192 := ⟨8191, by omega⟩

/-- THE FIRST RESULT, whole: entry (b, t, r) is the projected value of rows (b, t) of x and b of the previous state. -/
def outAll (x : Cube 64 8192 32) (ps : Mat 64 16) (Win : Mat 16 32) (Ws : Mat 16 16) (Wout : Mat 32 16) (Wgx : Mat 16 32)
    (bgx : Row 16) (Wgs : Mat 16 16) (bgs : Row 16) (Wdc : Mat 16 48) (bdc : Row 16) : Cube 64 8192 32 :=
  fun i => projected (rowOf x (i 0) (i 1)) (stateOf ps (i 0)) Win Ws Wout Wgx bgx Wgs bgs Wdc bdc (i 2)

/-- THE SECOND RESULT, whole: entry (b, s) is the hidden value of channel s at the last time step. -/
def lastAll (x : Cube 64 8192 32) (ps : Mat 64 16) (Win : Mat 16 32) (Ws : Mat 16 16) (Wgx : Mat 16 32)
    (bgx : Row 16) (Wgs : Mat 16 16) (bgs : Row 16) (Wdc : Mat 16 48) (bdc : Row 16) : Mat 64 16 :=
  fun i => hidden (rowOf x (i 0) lastStep) (stateOf ps (i 0)) Win Ws Wgx bgx Wgs bgs Wdc bdc (i 1)

theorem outAll_apply (x : Cube 64 8192 32) (ps : Mat 64 16) (Win : Mat 16 32) (Ws : Mat 16 16) (Wout : Mat 32 16) (Wgx : Mat 16 32)
    (bgx : Row 16) (Wgs : Mat 16 16) (bgs : Row 16) (Wdc : Mat 16 48) (bdc : Row 16) (b : Fin 64) (t : Fin 8192) (r : Fin 32) :
    outAll x ps Win Ws Wout Wgx bgx Wgs bgs Wdc bdc (ix3 b t r)
      = projected (rowOf x b t) (stateOf ps b) Win Ws Wout Wgx bgx Wgs bgs Wdc bdc r := rfl

theorem lastAll_apply (x : Cube 64 8192 32) (ps : Mat 64 16) (Win : Mat 16 32) (Ws : Mat 16 16) (Wgx : Mat 16 32)
    (bgx : Row 16) (Wgs : Mat 16 16) (bgs : Row 16) (Wdc : Mat 16 48) (bdc : Row 16) (b : Fin 64) (s : Fin 16) :
    lastAll x ps Win Ws Wgx bgx Wgs bgs Wdc bdc (ix2 b s)
      = hidden (rowOf x b lastStep) (stateOf ps b) Win Ws Wgx bgx Wgs bgs Wdc bdc s := rfl

end Cert.GatedState

end
-- ==== Proof.RefValue.lean ====
/-
  The reference program's two results, read one entry at a time, are the specification's.

  Each operation of the reference is read at explicit coordinates: a batch row b, a time step t, a state channel s
  (and an output feature r). A contraction becomes the sum over its one contracted axis with the row factor on the left;
  a slice, transpose or broadcast reads its operand at the moved coordinates; the spelled-out quotient
  1 / (1 + e^(−z)) is the logistic function. Composing these stage by stage gives, at (b, t, s), the hidden value of the
  rows x[b, t, :] and prev_state[b, :]; the first result contracts it against W_out, the second reads it at the last
  time step (the flattening of (b, 0, s) to (b, s) is division and remainder by 16).
-/
import proofs.«147952_j78262894068472_1_alg».proof.Proof.Spec
import proofs.«147952_j78262894068472_1_alg».proof.Proof.Gen.ReferenceIdeal.Read
import Idealize.ShloMosaic.Lib.ValueIdx
import Idealize.ShloMosaic.PureOps.Ideal.Laws

noncomputable section

open scoped BigOperators

namespace Cert.ReferenceIdeal.RefValue

open Cert.ReferenceIdeal Cert.ReferenceIdeal.Read Cert.GatedState
open Idealize.ShloMosaic Idealize.ShloMosaic.ValueIdx Idealize.ShloMosaic.TcCoe Idealize.SL.Sem Idealize.ShloMosaic.StableHlo

local macro "axes1" : tactic => `(tactic| (funext a; match a with | ⟨0, _⟩ => rfl))
local macro "axes2" : tactic => `(tactic| (funext a; match a with | ⟨0, _⟩ => rfl | ⟨1, _⟩ => rfl))
local macro "axes3" : tactic => `(tactic| (funext a; match a with | ⟨0, _⟩ => rfl | ⟨1, _⟩ => rfl | ⟨2, _⟩ => rfl))

variable (x0 : (⟨S64x8192x32, .f32⟩ : BufTy).Contents (Elt Ideal))
  (x1 : (⟨S64x16, .f32⟩ : BufTy).Contents (Elt Ideal))
  (x2 : (⟨S16x32, .f32⟩ : BufTy).Contents (Elt Ideal))
  (x3 : (⟨S16x16, .f32⟩ : BufTy).Contents (Elt Ideal))
  (x4 : (⟨S32x16, .f32⟩ : BufTy).Contents (Elt Ideal))
  (x5 : (⟨S16x32, .f32⟩ : BufTy).Contents (Elt Ideal))
  (x6 : (⟨S16, .f32⟩ : BufTy).Contents (Elt Ideal))
  (x7 : (⟨S16x16, .f32⟩ : BufTy).Contents (Elt Ideal))
  (x8 : (⟨S16, .f32⟩ : BufTy).Contents (Elt Ideal))
  (x9 : (⟨S16x48, .f32⟩ : BufTy).Contents (Elt Ideal))
  (x10 : (⟨S16, .f32⟩ : BufTy).Contents (Elt Ideal))
  (b : Fin 64) (t : Fin 8192) (s : Fin 16) (r : Fin 32)

/-! ### The input projection: x against W_in -/

theorem l0 (d : Fin 32) : lidx_main_v0 (ix3 b t s) d = ix3 b t d := by axes3
theorem r0 (d : Fin 32) : ridx_main_v0 (ix3 b t s) d = ix2 s d := by axes2

theorem delta_at : val_main_v0 (F := Ideal) x0 x2 (ix3 b t s) = ∑ d : Fin 32, x0 (ix3 b t d) * x2 (ix2 s d) := by
  rw [val_main_v0_apply]
  simp only [l0, r0]

/-! ### The decay control: x against the first 32 columns of W_dc, the previous state against the last 16 -/

theorem i1 (d : Fin 32) : idx_main_v1 (ix2 s d) = ix2 s (headCol d) := by axes2
theorem l2 (d : Fin 32) : lidx_main_v2 (ix3 b t s) d = ix3 b t d := by axes3
theorem r2 (d : Fin 32) : ridx_main_v2 (ix3 b t s) d = ix2 s d := by axes2

theorem ctx_x_at : val_main_v2 (F := Ideal) x0 x9 (ix3 b t s) = ∑ d : Fin 32, x0 (ix3 b t d) * x9 (ix2 s (headCol d)) := by
  rw [val_main_v2_apply]
  simp only [l2, r2, val_main_v1_apply, i1]

theorem i3 (k : Fin 16) : idx_main_v3 (ix2 s k) = ix2 s (tailCol k) := by axes2
theorem i4 (k : Fin 16) : idx_main_v4 (ix2 k s) = ix2 s k := by axes2
theorem l5 (k : Fin 16) : lidx_main_v5 (ix2 b s) k = ix2 b k := by axes2
theorem r5 (k : Fin 16) : ridx_main_v5 (ix2 b s) k = ix2 k s := by axes2

theorem ctx_p_at : val_main_v5 (F := Ideal) x1 x9 (ix2 b s) = ∑ k : Fin 16, x1 (ix2 b k) * x9 (ix2 s (tailCol k)) := by
  rw [val_main_v5_apply]
  simp only [l5, r5, val_main_v4_apply, i4, val_main_v3_apply, i3]

theorem i67 : idx_main_v6 (idx_main_v7 (ix2 b s)) = ix1 s := by axes1

theorem bias_dc_at : val_main_v7 (F := Ideal) x10 (ix2 b s) = x10 (ix1 s) := by
  rw [val_main_v7_apply, val_main_v6_apply, i67]

theorem i910 : idx_main_v9 (idx_main_v10 (ix3 b t s)) = ix2 b s := by axes2

theorem ctx_at : val_main_v11 (F := Ideal) x0 x1 x9 x10 (ix3 b t s)
    = (∑ d : Fin 32, x0 (ix3 b t d) * x9 (ix2 s (headCol d)))
      + ((∑ k : Fin 16, x1 (ix2 b k) * x9 (ix2 s (tailCol k))) + x10 (ix1 s)) := by
  rw [val_main_v11_apply, ctx_x_at, val_main_v10_apply, val_main_v9_apply, i910, val_main_v8_apply, ctx_p_at, bias_dc_at]
  rfl

/-! ### The decay factor: the exponential of the scale word times the logistic function of the control -/

theorem decay_sig_at : val_main_v17 (F := Ideal) x0 x1 x9 x10 (ix3 b t s)
    = Ideal.logistic (val_main_v11 (F := Ideal) x0 x1 x9 x10 (ix3 b t s)) := by
  rw [val_main_v17_apply, val_main_v16_apply, val_main_cst_0_apply, val_main_v15_apply, val_main_v14_apply, val_main_cst_apply,
    val_main_v13_apply, val_main_v12_apply]
  exact logistic_spelled _

theorem decay_at : val_main_v20 (F := Ideal) x0 x1 x9 x10 (ix3 b t s)
    = Ideal.exp (Ideal.ofBits .f32 0xBD4CCCCD#32
        * Ideal.logistic ((∑ d : Fin 32, x0 (ix3 b t d) * x9 (ix2 s (headCol d)))
            + ((∑ k : Fin 16, x1 (ix2 b k) * x9 (ix2 s (tailCol k))) + x10 (ix1 s)))) := by
  rw [val_main_v20_apply, val_main_v19_apply, val_main_v18_apply, val_main_cst_1_apply, decay_sig_at, ctx_at]
  rfl

/-! ### The state mixing term: the previous state against W_s, times the previous state's own entry -/

theorem i21 (k : Fin 16) : idx_main_v21 (ix2 k s) = ix2 s k := by axes2
theorem l22 (k : Fin 16) : lidx_main_v22 (ix2 b s) k = ix2 b k := by axes2
theorem r22 (k : Fin 16) : ridx_main_v22 (ix2 b s) k = ix2 k s := by axes2

theorem mix_at : val_main_v23 (F := Ideal) x1 x3 (ix2 b s) = (∑ k : Fin 16, x1 (ix2 b k) * x3 (ix2 s k)) * x1 (ix2 b s) := by
  rw [val_main_v23_apply, val_main_v22_apply]
  simp only [l22, r22, val_main_v21_apply, i21, Ideal.mulf_def]

theorem i2425 : idx_main_v24 (idx_main_v25 (ix3 b t s)) = ix2 b s := by axes2

theorem core_at : val_main_v27 (F := Ideal) x0 x1 x2 x3 x9 x10 (ix3 b t s)
    = (∑ d : Fin 32, x0 (ix3 b t d) * x2 (ix2 s d))
      + ((∑ k : Fin 16, x1 (ix2 b k) * x3 (ix2 s k)) * x1 (ix2 b s))
        * Ideal.exp (Ideal.ofBits .f32 0xBD4CCCCD#32
            * Ideal.logistic ((∑ d : Fin 32, x0 (ix3 b t d) * x9 (ix2 s (headCol d)))
                + ((∑ k : Fin 16, x1 (ix2 b k) * x9 (ix2 s (tailCol k))) + x10 (ix1 s)))) := by
  rw [val_main_v27_apply, delta_at, val_main_v26_apply, val_main_v25_apply, val_main_v24_apply, i2425, mix_at, decay_at]
  rfl

/-! ### The two gates -/

theorem l28 (d : Fin 32) : lidx_main_v28 (ix3 b t s) d = ix3 b t d := by axes3
theorem r28 (d : Fin 32) : ridx_main_v28 (ix3 b t s) d = ix2 s d := by axes2
theorem i2930 : idx_main_v29 (idx_main_v30 (ix3 b t s)) = ix1 s := by axes1

theorem gate_x_pre_at : val_main_v31 (F := Ideal) x0 x5 x6 (ix3 b t s)
    = (∑ d : Fin 32, x0 (ix3 b t d) * x5 (ix2 s d)) + x6 (ix1 s) := by
  rw [val_main_v31_apply, val_main_v28_apply, val_main_v30_apply, val_main_v29_apply, i2930]
  simp only [l28, r28, Ideal.addf_def]

theorem gate_x_at : val_main_v37 (F := Ideal) x0 x5 x6 (ix3 b t s)
    = Ideal.logistic ((∑ d : Fin 32, x0 (ix3 b t d) * x5 (ix2 s d)) + x6 (ix1 s)) := by
  rw [val_main_v37_apply, val_main_v36_apply, val_main_cst_3_apply, val_main_v35_apply, val_main_v34_apply, val_main_cst_2_apply,
    val_main_v33_apply, val_main_v32_apply, gate_x_pre_at]
  exact logistic_spelled _

theorem i38 (k : Fin 16) : idx_main_v38 (ix2 k s) = ix2 s k := by axes2
theorem l39 (k : Fin 16) : lidx_main_v39 (ix2 b s) k = ix2 b k := by axes2
theorem r39 (k : Fin 16) : ridx_main_v39 (ix2 b s) k = ix2 k s := by axes2
theorem i4041 : idx_main_v40 (idx_main_v41 (ix2 b s)) = ix1 s := by axes1

theorem gate_s_pre_at : val_main_v42 (F := Ideal) x1 x7 x8 (ix2 b s)
    = (∑ k : Fin 16, x1 (ix2 b k) * x7 (ix2 s k)) + x8 (ix1 s) := by
  rw [val_main_v42_apply, val_main_v39_apply, val_main_v41_apply, val_main_v40_apply, i4041]
  simp only [l39, r39, val_main_v38_apply, i38, Ideal.addf_def]

theorem gate_s_at : val_main_v48 (F := Ideal) x1 x7 x8 (ix2 b s)
    = Ideal.logistic ((∑ k : Fin 16, x1 (ix2 b k) * x7 (ix2 s k)) + x8 (ix1 s)) := by
  rw [val_main_v48_apply, val_main_v47_apply, val_main_cst_5_apply, val_main_v46_apply, val_main_v45_apply, val_main_cst_4_apply,
    val_main_v44_apply, val_main_v43_apply, gate_s_pre_at]
  exact logistic_spelled _

theorem i4951 : idx_main_v49 (idx_main_v51 (ix3 b t s)) = ix2 b s := by axes2

/-! ### The hidden value, the projection, and the last time step -/

theorem hidden_at : val_main_v52 (F := Ideal) x0 x1 x2 x3 x5 x6 x7 x8 x9 x10 (ix3 b t s)
    = hidden (rowOf x0 b t) (stateOf x1 b) x2 x3 x5 x6 x7 x8 x9 x10 s := by
  rw [val_main_v52_apply, val_main_v50_apply, core_at, gate_x_at, val_main_v51_apply, val_main_v49_apply, i4951, gate_s_at]
  rfl

theorem l53 (k : Fin 16) : lidx_main_v53 (ix3 b t r) k = ix3 b t k := by axes3
theorem r53 (k : Fin 16) : ridx_main_v53 (ix3 b t r) k = ix2 r k := by axes2

theorem out_at : val_main_v53 (F := Ideal) x0 x1 x2 x3 x4 x5 x6 x7 x8 x9 x10 (ix3 b t r)
    = projected (rowOf x0 b t) (stateOf x1 b) x2 x3 x4 x5 x6 x7 x8 x9 x10 r := by
  rw [val_main_v53_apply]
  unfold projected
  refine Finset.sum_congr rfl fun k _ => ?_
  rw [l53, r53, hidden_at]

theorem i5455 : idx_main_v54 (idx_main_v55 (ix2 b s)) = ix3 b lastStep s := by
  funext a
  match a with
  | ⟨0, _⟩ => exact Fin.ext (by show (b.val * 16 + s.val) / 16 = b.val; have := s.isLt; omega)
  | ⟨1, _⟩ => rfl
  | ⟨2, _⟩ => exact Fin.ext (by show (b.val * 16 + s.val) % 16 = s.val; have := s.isLt; omega)

theorem last_at : val_main_v55 (F := Ideal) x0 x1 x2 x3 x5 x6 x7 x8 x9 x10 (ix2 b s)
    = hidden (rowOf x0 b lastStep) (stateOf x1 b) x2 x3 x5 x6 x7 x8 x9 x10 s := by
  rw [val_main_v55_apply, val_main_v54_apply, i5455, hidden_at]

/-- The reference's first result is the specification's, entry by entry. -/
theorem out_eq :
    val_main_v53 (F := Ideal) x0 x1 x2 x3 x4 x5 x6 x7 x8 x9 x10 = outAll x0 x1 x2 x3 x4 x5 x6 x7 x8 x9 x10 := by
  funext i
  obtain ⟨b, t, r, rfl⟩ : ∃ (b : Fin 64) (t : Fin 8192) (r : Fin 32), i = ix3 b t r := ⟨i 0, i 1, i 2, eq_ix3 i⟩
  rw [outAll_apply]
  exact out_at x0 x1 x2 x3 x4 x5 x6 x7 x8 x9 x10 b t r

/-- The reference's second result is the specification's, entry by entry. -/
theorem last_eq :
    val_main_v55 (F := Ideal) x0 x1 x2 x3 x5 x6 x7 x8 x9 x10 = lastAll x0 x1 x2 x3 x5 x6 x7 x8 x9 x10 := by
  funext i
  obtain ⟨b, s, rfl⟩ : ∃ (b : Fin 64) (s : Fin 16), i = ix2 b s := ⟨i 0, i 1, eq_ix2 i⟩
  rw [lastAll_apply]
  exact last_at x0 x1 x2 x3 x5 x6 x7 x8 x9 x10 b s

end Cert.ReferenceIdeal.RefValue

end
-- ==== Proof.Pieces.lean ====
/-
  What one grid step leaves in its output tiles, as values.

  At a grid step the body reads its eleven input tiles whole, computes, and overwrites the whole tile of the first
  result with one store; at a step of the last time tile it also overwrites the whole tile of the second result.
  A tile that one store covers entirely holds, afterwards, exactly the stored value, whatever it held before. So the
  first result's tile is the body's projected-value term of the input tiles, in both kinds of step, and at a
  last-time-tile step the second result's tile is the body's last-row term of the input tiles. The terms are the
  body's own arithmetic written as functions of the loaded tiles; nothing here looks inside them.
-/
import proofs.«147952_j78262894068472_1_alg».proof.Proof.Gen.KernelIdeal.Frame
import Idealize.ShloMosaic.Lib.Pipeline.Value
import Idealize.ShloMosaic.Lib.Tactic

set_option maxRecDepth 16384

noncomputable section

namespace Cert.KernelIdeal.Found

open Cert.KernelIdeal Cert.KernelIdeal.Gen Idealize.ShloMosaic Idealize.ShloMosaic.TcCoe Idealize.ShloMosaic.Tactic Idealize.SL.Sem

variable {F : FTy → Type} [FloatOps F]

/-- The all-zero offset of a rank-3, rank-2 and rank-1 tile: a store or load at it addresses the tile from its origin. -/
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

/-- The first result's tile as a function of the eleven input tiles: the body's projected-value term. -/
abbrev outTile (x0 : Vec F S8x2048x32 .f32) (x1 : Vec F S8x16 .f32) (x2 : Vec F S16x32 .f32) (x3 : Vec F S16x16 .f32) (x4 : Vec F S32x16 .f32) (x5 : Vec F S16x32 .f32) (x6 : Vec F S16 .f32) (x7 : Vec F S16x16 .f32) (x8 : Vec F S16 .f32) (x9 : Vec F S16x48 .f32) (x10 : Vec F S16 .f32) : Vec F S8x2048x32 .f32 :=
  k0_pay2 x1 (k0_pay4 x0) (k0_pay5 x1) (k0_pay6 x3) (k0_pay7 x4) (k0_pay8 x5) (k0_pay9 x7) x6 x8 (k0_pay11 x0 x2) (k0_pay12 x0 x9) (k0_pay13 x1 x9 x10)

/-- The second result's tile as a function of the input tiles: the body's last-row term (the output projection's
    weight does not enter it). -/
abbrev lastTile (x0 : Vec F S8x2048x32 .f32) (x1 : Vec F S8x16 .f32) (x2 : Vec F S16x32 .f32) (x3 : Vec F S16x16 .f32) (x4 : Vec F S32x16 .f32) (x5 : Vec F S16x32 .f32) (x6 : Vec F S16 .f32) (x7 : Vec F S16x16 .f32) (x8 : Vec F S16 .f32) (x9 : Vec F S16x48 .f32) (x10 : Vec F S16 .f32) : Vec F S8x16 .f32 :=
  k0_pay3 x1 (k0_pay4 x0) (k0_pay5 x1) (k0_pay6 x3) (k0_pay8 x5) (k0_pay9 x7) x6 x8 (k0_pay11 x0 x2) (k0_pay12 x0 x9) (k0_pay13 x1 x9 x10)

/-- A step that is not in the last time tile leaves the first result's tile at the projected-value term: its one store
    covers the tile, and every load it made read an input tile whole. -/
theorem out_early (c : Dev nD) (i : grid0.Coords) (arg2 : Memref sig .tc .vmem S8x2048x32 .f32) (harg2 : arg2.IsWhole) (arg3 : Memref sig .tc .vmem S8x16 .f32) (harg3 : arg3.IsWhole) (arg4 : Memref sig .tc .vmem S16x32 .f32) (harg4 : arg4.IsWhole) (arg5 : Memref sig .tc .vmem S16x16 .f32) (harg5 : arg5.IsWhole) (arg6 : Memref sig .tc .vmem S32x16 .f32) (harg6 : arg6.IsWhole) (arg7 : Memref sig .tc .vmem S16x32 .f32) (harg7 : arg7.IsWhole) (arg8 : Memref sig .tc .vmem S16 .f32) (harg8 : arg8.IsWhole) (arg9 : Memref sig .tc .vmem S16x16 .f32) (harg9 : arg9.IsWhole) (arg10 : Memref sig .tc .vmem S16 .f32) (harg10 : arg10.IsWhole) (arg11 : Memref sig .tc .vmem S16x48 .f32) (harg11 : arg11.IsWhole) (arg12 : Memref sig .tc .vmem S16 .f32) (harg12 : arg12.IsWhole) (arg13 : Memref sig .tc .vmem S8x2048x32 .f32) (harg13 : arg13.IsWhole) (arg14 : Memref sig .tc .vmem S8x16 .f32) (harg14 : arg14.IsWhole) (hc0 : ¬cond0_0 i) (x0 : Vec F S8x2048x32 .f32) (x1 : Vec F S8x16 .f32) (x2 : Vec F S16x32 .f32) (x3 : Vec F S16x16 .f32) (x4 : Vec F S32x16 .f32) (x5 : Vec F S16x32 .f32) (x6 : Vec F S16 .f32) (x7 : Vec F S16x16 .f32) (x8 : Vec F S16 .f32) (x9 : Vec F S16x48 .f32) (x10 : Vec F S16 .f32) :
    out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = outTile x0 x1 x2 x3 x4 x5 x6 x7 x8 x9 x10 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S8x2048x32) hz3, View.ld_unit_zero (S := S8x16) hz2, View.ld_unit_zero (S := S16x32) hz2, View.ld_unit_zero (S := S16x16) hz2, View.ld_unit_zero (S := S32x16) hz2, View.ld_unit_zero (S := S16x48) hz2, View.ld_unit_zero (S := S16) hz1]

/-- A step in the last time tile leaves the first result's tile at the same term. -/
theorem out_late (c : Dev nD) (i : grid0.Coords) (arg2 : Memref sig .tc .vmem S8x2048x32 .f32) (harg2 : arg2.IsWhole) (arg3 : Memref sig .tc .vmem S8x16 .f32) (harg3 : arg3.IsWhole) (arg4 : Memref sig .tc .vmem S16x32 .f32) (harg4 : arg4.IsWhole) (arg5 : Memref sig .tc .vmem S16x16 .f32) (harg5 : arg5.IsWhole) (arg6 : Memref sig .tc .vmem S32x16 .f32) (harg6 : arg6.IsWhole) (arg7 : Memref sig .tc .vmem S16x32 .f32) (harg7 : arg7.IsWhole) (arg8 : Memref sig .tc .vmem S16 .f32) (harg8 : arg8.IsWhole) (arg9 : Memref sig .tc .vmem S16x16 .f32) (harg9 : arg9.IsWhole) (arg10 : Memref sig .tc .vmem S16 .f32) (harg10 : arg10.IsWhole) (arg11 : Memref sig .tc .vmem S16x48 .f32) (harg11 : arg11.IsWhole) (arg12 : Memref sig .tc .vmem S16 .f32) (harg12 : arg12.IsWhole) (arg13 : Memref sig .tc .vmem S8x2048x32 .f32) (harg13 : arg13.IsWhole) (arg14 : Memref sig .tc .vmem S8x16 .f32) (harg14 : arg14.IsWhole) (hc0 : cond0_0 i) (x0 : Vec F S8x2048x32 .f32) (x1 : Vec F S8x16 .f32) (x2 : Vec F S16x32 .f32) (x3 : Vec F S16x16 .f32) (x4 : Vec F S32x16 .f32) (x5 : Vec F S16x32 .f32) (x6 : Vec F S16 .f32) (x7 : Vec F S16x16 .f32) (x8 : Vec F S16 .f32) (x9 : Vec F S16x48 .f32) (x10 : Vec F S16 .f32) :
    out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = outTile x0 x1 x2 x3 x4 x5 x6 x7 x8 x9 x10 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S8x2048x32) hz3, View.ld_unit_zero (S := S8x16) hz2, View.ld_unit_zero (S := S16x32) hz2, View.ld_unit_zero (S := S16x16) hz2, View.ld_unit_zero (S := S32x16) hz2, View.ld_unit_zero (S := S16x48) hz2, View.ld_unit_zero (S := S16) hz1]

/-- A step in the last time tile leaves the second result's tile at the last-row term. -/
theorem last_late (c : Dev nD) (i : grid0.Coords) (arg2 : Memref sig .tc .vmem S8x2048x32 .f32) (harg2 : arg2.IsWhole) (arg3 : Memref sig .tc .vmem S8x16 .f32) (harg3 : arg3.IsWhole) (arg4 : Memref sig .tc .vmem S16x32 .f32) (harg4 : arg4.IsWhole) (arg5 : Memref sig .tc .vmem S16x16 .f32) (harg5 : arg5.IsWhole) (arg6 : Memref sig .tc .vmem S32x16 .f32) (harg6 : arg6.IsWhole) (arg7 : Memref sig .tc .vmem S16x32 .f32) (harg7 : arg7.IsWhole) (arg8 : Memref sig .tc .vmem S16 .f32) (harg8 : arg8.IsWhole) (arg9 : Memref sig .tc .vmem S16x16 .f32) (harg9 : arg9.IsWhole) (arg10 : Memref sig .tc .vmem S16 .f32) (harg10 : arg10.IsWhole) (arg11 : Memref sig .tc .vmem S16x48 .f32) (harg11 : arg11.IsWhole) (arg12 : Memref sig .tc .vmem S16 .f32) (harg12 : arg12.IsWhole) (arg13 : Memref sig .tc .vmem S8x2048x32 .f32) (harg13 : arg13.IsWhole) (arg14 : Memref sig .tc .vmem S8x16 .f32) (harg14 : arg14.IsWhole) (hc0 : cond0_0 i) (x0 : Vec F S8x2048x32 .f32) (x1 : Vec F S8x16 .f32) (x2 : Vec F S16x32 .f32) (x3 : Vec F S16x16 .f32) (x4 : Vec F S32x16 .f32) (x5 : Vec F S16x32 .f32) (x6 : Vec F S16 .f32) (x7 : Vec F S16x16 .f32) (x8 : Vec F S16 .f32) (x9 : Vec F S16x48 .f32) (x10 : Vec F S16 .f32) :
    out0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = lastTile x0 x1 x2 x3 x4 x5 x6 x7 x8 x9 x10 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S8x2048x32) hz3, View.ld_unit_zero (S := S8x16) hz2, View.ld_unit_zero (S := S16x32) hz2, View.ld_unit_zero (S := S16x16) hz2, View.ld_unit_zero (S := S32x16) hz2, View.ld_unit_zero (S := S16x48) hz2, View.ld_unit_zero (S := S16) hz1]

end Cert.KernelIdeal.Found

end
-- ==== Proof.KernelCell.lean ====
/-
  The kernel body's arithmetic, read one element at a time.

  At one grid point the body sees a tile of x of shape [8, 2048, 32], a tile of the previous state [8, 16] and the
  weights whole. It flattens the x tile to [16384, 32] (row (p, q) of the tile becomes row p·2048 + q), multiplies by
  the transposed input, decay-control and gate weights, reshapes back to [8, 2048, 16], adds the per-batch-row terms
  (products of the state row with transposed [16,16] weights, broadcast along the time axis) and combines them
  pointwise into the hidden tile; the output tile is the hidden tile flattened, multiplied by the transposed output
  projection and reshaped back, and the last-state tile is time row 2047 of the hidden tile.

  Every operation that is not pointwise is read here at explicit coordinates: a matrix product into a zero accumulator
  is the finite sum over its one contracted axis, a reshape keeps the row-major position, a broadcast reads the
  operand's one row, a transpose swaps the two coordinates, a slice shifts by its offsets. Put together, the hidden
  tile at (p, q, s) is the specification's hidden value of row (p, q) of x and row p of the state, and the two stored
  tiles follow from it.
-/
import proofs.«147952_j78262894068472_1_alg».proof.Proof.Spec
import proofs.«147952_j78262894068472_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Cell

open Cert.KernelIdeal Cert.KernelIdeal.Gen Idealize.ShloMosaic Idealize.ShloMosaic.ValueIdx Cert.GatedState

/-! ## Reshapes, broadcasts and slices at literal coordinates -/

section Layout
variable {α : Type}

/-- The flattened row of tile position (p, q): p · 2048 + q. -/
abbrev flatRow (p : Fin 8) (q : Fin 2048) : Fin 16384 := ⟨p.val * 2048 + q.val, by omega⟩

/-- The last time row of a tile. -/
abbrev lastRow : Fin 2048 := ⟨2047, by omega⟩

/-- The one coordinate of a unit axis. -/
abbrev unit0 : Fin 1 := ⟨0, Nat.one_pos⟩

/-- [8, 2048, 32] flattened to [16384, 32]: flat row p · 2048 + q is tile row (p, q). -/
theorem flatten32_apply (v : S8x2048x32.Idx → α) (h : S8x2048x32.ShapeCasts S16384x32) (p : Fin 8) (q : Fin 2048) (d : Fin 32) :
    shapeCast S16384x32 v h (ix2 (flatRow p q) d) = v (ix3 p q d) :=
  shapeCast_apply v h _ _ (by
    rw [Shape.rowMajor_val_three, Shape.rowMajor_val_two]
    rfl)

/-- [8, 2048, 16] flattened to [16384, 16], the same way. -/
theorem flatten16_apply (v : S8x2048x16.Idx → α) (h : S8x2048x16.ShapeCasts S16384x16) (p : Fin 8) (q : Fin 2048) (s : Fin 16) :
    shapeCast S16384x16 v h (ix2 (flatRow p q) s) = v (ix3 p q s) :=
  shapeCast_apply v h _ _ (by
    rw [Shape.rowMajor_val_three, Shape.rowMajor_val_two]
    rfl)

/-- [16384, 16] cut back into [8, 2048, 16]: tile position (p, q) reads flat row p · 2048 + q. -/
theorem unflatten16_apply (v : S16384x16.Idx → α) (h : S16384x16.ShapeCasts S8x2048x16) (p : Fin 8) (q : Fin 2048) (s : Fin 16) :
    shapeCast S8x2048x16 v h (ix3 p q s) = v (ix2 (flatRow p q) s) :=
  shapeCast_apply v h _ _ (by
    rw [Shape.rowMajor_val_three, Shape.rowMajor_val_two]
    rfl)

/-- [16384, 32] cut back into [8, 2048, 32], the same way. -/
theorem unflatten32_apply (v : S16384x32.Idx → α) (h : S16384x32.ShapeCasts S8x2048x32) (p : Fin 8) (q : Fin 2048) (r : Fin 32) :
    shapeCast S8x2048x32 v h (ix3 p q r) = v (ix2 (flatRow p q) r) :=
  shapeCast_apply v h _ _ (by
    rw [Shape.rowMajor_val_three, Shape.rowMajor_val_two]
    rfl)

/-- [8, 16] given a unit time axis, [8, 1, 16]: position (p, 0, s) reads (p, s). -/
theorem addTime_apply (v : S8x16.Idx → α) (h : S8x16.ShapeCasts S8x1x16) (p : Fin 8) (u : Fin 1) (s : Fin 16) :
    shapeCast S8x1x16 v h (ix3 p u s) = v (ix2 p s) :=
  shapeCast_apply v h _ _ (by
    have hu : u.val = 0 := by omega
    rw [Shape.rowMajor_val_three, Shape.rowMajor_val_two]
    show p.val * 16 + s.val = (p.val * 1 + u.val) * 16 + s.val
    rw [hu, Nat.mul_one, Nat.add_zero])

/-- [8, 1, 16] with its unit time axis dropped, [8, 16]: position (p, s) reads (p, 0, s). -/
theorem dropTime_apply (v : S8x1x16.Idx → α) (h : S8x1x16.ShapeCasts S8x16) (p : Fin 8) (s : Fin 16) :
    shapeCast S8x16 v h (ix2 p s) = v (ix3 p unit0 s) :=
  shapeCast_apply v h _ _ (by
    rw [Shape.rowMajor_val_three, Shape.rowMajor_val_two]
    show (p.val * 1 + 0) * 16 + s.val = p.val * 16 + s.val
    rw [Nat.mul_one, Nat.add_zero])

/-- A [16] vector given two unit axes, [1, 1, 16]: position (0, 0, s) reads s. -/
theorem addTwo_apply (v : S16.Idx → α) (h : S16.ShapeCasts S1x1x16) (u w : Fin 1) (s : Fin 16) :
    shapeCast S1x1x16 v h (ix3 u w s) = v (ix1 s) :=
  shapeCast_apply v h _ _ (by
    have hu : u.val = 0 := by omega
    have hw : w.val = 0 := by omega
    rw [Shape.rowMajor_val_three, Shape.rowMajor_val_one]
    show s.val = (u.val * 1 + w.val) * 16 + s.val
    omega)

/-- [8, 1, 16] broadcast along the time axis to [8, 2048, 16]: position (p, q, s) reads (p, 0, s). -/
theorem alongTime_apply (v : S8x1x16.Idx → α) (h : S8x1x16.Broadcasts S8x2048x16) (p : Fin 8) (q : Fin 2048) (s : Fin 16) :
    broadcastTo S8x2048x16 v h (ix3 p q s) = v (ix3 p unit0 s) :=
  broadcastTo_apply v h (ix3 p q s) (ix3 p unit0 s) fun ax =>
    match ax with
    | ⟨0, _⟩ => rfl
    | ⟨1, _⟩ => rfl
    | ⟨2, _⟩ => rfl

/-- [1, 1, 16] broadcast to [8, 2048, 16]: position (p, q, s) reads (0, 0, s). -/
theorem everywhere_apply (v : S1x1x16.Idx → α) (h : S1x1x16.Broadcasts S8x2048x16) (p : Fin 8) (q : Fin 2048) (s : Fin 16) :
    broadcastTo S8x2048x16 v h (ix3 p q s) = v (ix3 unit0 unit0 s) :=
  broadcastTo_apply v h (ix3 p q s) (ix3 unit0 unit0 s) fun ax =>
    match ax with
    | ⟨0, _⟩ => rfl
    | ⟨1, _⟩ => rfl
    | ⟨2, _⟩ => rfl

/-- A per-batch-row [8, 16] array spread along the time axis: unit axis added, then broadcast. -/
theorem spreadRow_apply (v : S8x16.Idx → α) (h₁ : S8x16.ShapeCasts S8x1x16) (h₂ : S8x1x16.Broadcasts S8x2048x16)
    (p : Fin 8) (q : Fin 2048) (s : Fin 16) :
    broadcastTo S8x2048x16 (shapeCast S8x1x16 v h₁) h₂ (ix3 p q s) = v (ix2 p s) :=
  (alongTime_apply _ h₂ p q s).trans (addTime_apply v h₁ p unit0 s)

/-- A [16] bias spread over the whole [8, 2048, 16] tile. -/
theorem spreadBias3_apply (v : S16.Idx → α) (h₁ : S16.ShapeCasts S1x1x16) (h₂ : S1x1x16.Broadcasts S8x2048x16)
    (p : Fin 8) (q : Fin 2048) (s : Fin 16) :
    broadcastTo S8x2048x16 (shapeCast S1x1x16 v h₁) h₂ (ix3 p q s) = v (ix1 s) :=
  (everywhere_apply _ h₂ p q s).trans (addTwo_apply v h₁ unit0 unit0 s)

/-- A [16] bias spread over the [8, 16] per-batch-row array. -/
theorem spreadBias2_apply (v : S16.Idx → α) (h₁ : S16.ShapeCasts S1x16) (h₂ : S1x16.Broadcasts S8x16) (p : Fin 8) (s : Fin 16) :
    broadcastTo S8x16 (shapeCast S1x16 v h₁) h₂ (ix2 p s) = v (ix1 s) :=
  (broadcastTo_1b_ab_apply _ h₂ p s).trans (shapeCast_a_1a_apply v h₁ (0 : Fin 1) s)

/-- The first 32 columns of the [16, 48] decay-control weight. -/
theorem headSlice_apply (v : S16x48.Idx → α) (h : S16x48.Slices ![0, 0] S16x32) (s : Fin 16) (d : Fin 32) :
    extractStridedSlice S16x32 ![0, 0] v h (ix2 s d) = v (ix2 s (headCol d)) :=
  extractStridedSlice_apply ![0, 0] v h (ix2 s d) (ix2 s (headCol d)) fun a =>
    match a with
    | ⟨0, _⟩ => by show s.val = 0 + s.val; omega
    | ⟨1, _⟩ => by show d.val = 0 + d.val; omega

/-- Its last 16 columns. -/
theorem tailSlice_apply (v : S16x48.Idx → α) (h : S16x48.Slices ![0, 32] S16x16) (s : Fin 16) (k : Fin 16) :
    extractStridedSlice S16x16 ![0, 32] v h (ix2 s k) = v (ix2 s (tailCol k)) :=
  extractStridedSlice_apply ![0, 32] v h (ix2 s k) (ix2 s (tailCol k)) fun a =>
    match a with
    | ⟨0, _⟩ => by show s.val = 0 + s.val; omega
    | ⟨1, _⟩ => by show 32 + k.val = 32 + k.val; rfl

/-- Time row 2047 of an [8, 2048, 16] tile, kept as [8, 1, 16]. -/
theorem lastSlice_apply (v : S8x2048x16.Idx → α) (h : S8x2048x16.Slices ![0, 2047, 0] S8x1x16) (p : Fin 8) (u : Fin 1) (s : Fin 16) :
    extractStridedSlice S8x1x16 ![0, 2047, 0] v h (ix3 p u s) = v (ix3 p lastRow s) :=
  extractStridedSlice_apply ![0, 2047, 0] v h (ix3 p u s) (ix3 p lastRow s) fun a =>
    match a with
    | ⟨0, _⟩ => by show p.val = 0 + p.val; omega
    | ⟨1, _⟩ => by have hu : u.val = 0 := by omega
                   show 2047 = 2047 + u.val; omega
    | ⟨2, _⟩ => by show s.val = 0 + s.val; omega

end Layout

/-! ## The three transposes at literal coordinates -/

section Swaps
variable {α : Type}

/-- A [16, 16] matrix transposed reads (k, s) at (s, k). -/
theorem swap16_apply (v : S16x16.Idx → α) (h : S16x16.Transposes [1, 0] S16x16) (k s : Fin 16) :
    transpose S16x16 [1, 0] v h (ix2 k s) = v (ix2 s k) :=
  transpose_apply _ v h _ _ fun c => match c with | ⟨0, _⟩ => rfl | ⟨1, _⟩ => rfl

/-- A [16, 32] matrix transposed to [32, 16] reads (d, s) at (s, d). -/
theorem swapWide_apply (v : S16x32.Idx → α) (h : S16x32.Transposes [1, 0] S32x16) (d : Fin 32) (s : Fin 16) :
    transpose S32x16 [1, 0] v h (ix2 d s) = v (ix2 s d) :=
  transpose_apply _ v h _ _ fun c => match c with | ⟨0, _⟩ => rfl | ⟨1, _⟩ => rfl

/-- A [32, 16] matrix transposed to [16, 32] reads (s, r) at (r, s). -/
theorem swapOut_apply (v : S32x16.Idx → α) (h : S32x16.Transposes [1, 0] S16x32) (s : Fin 16) (r : Fin 32) :
    transpose S16x32 [1, 0] v h (ix2 s r) = v (ix2 r s) :=
  transpose_apply _ v h _ _ fun c => match c with | ⟨0, _⟩ => rfl | ⟨1, _⟩ => rfl

end Swaps

/-! ## The three matrix products at an index

A product into a zero accumulator is the sum, over its one contracted axis, of left entry times right entry. The
operand indices the dimension numbers name are computed axis by axis: the left operand is read at (row, k), the right
operand at (k, column). -/

section Products

/-! ### [16384, 32] times [32, 16] -/

theorem lhsWide_0 (i : S16384x16.Idx) (q : dot_S16384x32_S32x16_S16384x16_1_0_0_1_n_n.contr.Idx) :
    (dot_S16384x32_S32x16_S16384x16_1_0_0_1_n_n.lhsIdx i q 0).val = (i 0).val := by
  unfold DotDims.lhsIdx
  rw [dif_neg (show ¬(0 : Fin S16384x32.rank) ∈ dot_S16384x32_S32x16_S16384x16_1_0_0_1_n_n.lhsBatch by decide), dif_pos (show (0 : Fin S16384x32.rank) ∈ dot_S16384x32_S32x16_S16384x16_1_0_0_1_n_n.lhsNonContracting by decide)]
  rfl
theorem lhsWide_1 (i : S16384x16.Idx) (q : dot_S16384x32_S32x16_S16384x16_1_0_0_1_n_n.contr.Idx) :
    (dot_S16384x32_S32x16_S16384x16_1_0_0_1_n_n.lhsIdx i q 1).val = (q ⟨0, by decide⟩).val :=
  dot_S16384x32_S32x16_S16384x16_1_0_0_1_n_n.lhsIdx_val_of_single rfl i q
theorem rhsWide_0 (i : S16384x16.Idx) (q : dot_S16384x32_S32x16_S16384x16_1_0_0_1_n_n.contr.Idx) :
    (dot_S16384x32_S32x16_S16384x16_1_0_0_1_n_n.rhsIdx i q 0).val = (q ⟨0, by decide⟩).val :=
  dot_S16384x32_S32x16_S16384x16_1_0_0_1_n_n.rhsIdx_val_of_single rfl i q
theorem rhsWide_1 (i : S16384x16.Idx) (q : dot_S16384x32_S32x16_S16384x16_1_0_0_1_n_n.contr.Idx) :
    (dot_S16384x32_S32x16_S16384x16_1_0_0_1_n_n.rhsIdx i q 1).val = (i 1).val := by
  unfold DotDims.rhsIdx
  rw [dif_neg (show ¬(1 : Fin S32x16.rank) ∈ dot_S16384x32_S32x16_S16384x16_1_0_0_1_n_n.rhsBatch by decide), dif_pos (show (1 : Fin S32x16.rank) ∈ dot_S16384x32_S32x16_S16384x16_1_0_0_1_n_n.rhsNonContracting by decide)]
  rfl

/-- Flat row m of the x tile against a [32, 16] weight: entry (m, s) is Σ_k lhs (m, k) · rhs (k, s). -/
theorem prodWide_apply (lhs : FVec Ideal S16384x32 .bf16) (rhs : FVec Ideal S32x16 .bf16) (m : Fin 16384) (s : Fin 16) :
    matmul dot_S16384x32_S32x16_S16384x16_1_0_0_1_n_n none lhs rhs (constant (F := Ideal) S16384x16 .f32 0x00000000#32) (ix2 m s)
      = ∑ k : Fin 32, lhs (ix2 m k) * rhs (ix2 k s) := by
  simp only [matmul]
  rw [Ideal.matmul_constant_zero_apply, ← Equiv.sum_comp (contrEquiv1 dot_S16384x32_S32x16_S16384x16_1_0_0_1_n_n 32 rfl rfl).symm]
  refine Finset.sum_congr rfl fun k _ => ?_
  have hk := contrEquiv1_symm_val dot_S16384x32_S32x16_S16384x16_1_0_0_1_n_n 32 rfl rfl k
  have el : dot_S16384x32_S32x16_S16384x16_1_0_0_1_n_n.lhsIdx (ix2 m s) ((contrEquiv1 dot_S16384x32_S32x16_S16384x16_1_0_0_1_n_n 32 rfl rfl).symm k) = ix2 m k := funext fun a => Fin.ext (by
    match a with
    | ⟨0, _⟩ => exact lhsWide_0 _ _
    | ⟨1, _⟩ => exact (lhsWide_1 _ _).trans hk)
  have er : dot_S16384x32_S32x16_S16384x16_1_0_0_1_n_n.rhsIdx (ix2 m s) ((contrEquiv1 dot_S16384x32_S32x16_S16384x16_1_0_0_1_n_n 32 rfl rfl).symm k) = ix2 k s := funext fun a => Fin.ext (by
    match a with
    | ⟨0, _⟩ => exact (rhsWide_0 _ _).trans hk
    | ⟨1, _⟩ => exact rhsWide_1 _ _)
  rw [el, er]

/-! ### [8, 16] times [16, 16] -/

theorem lhsState_0 (i : S8x16.Idx) (q : dot_S8x16_S16x16_S8x16_1_0_0_1_n_n.contr.Idx) :
    (dot_S8x16_S16x16_S8x16_1_0_0_1_n_n.lhsIdx i q 0).val = (i 0).val := by
  unfold DotDims.lhsIdx
  rw [dif_neg (show ¬(0 : Fin S8x16.rank) ∈ dot_S8x16_S16x16_S8x16_1_0_0_1_n_n.lhsBatch by decide), dif_pos (show (0 : Fin S8x16.rank) ∈ dot_S8x16_S16x16_S8x16_1_0_0_1_n_n.lhsNonContracting by decide)]
  rfl
theorem lhsState_1 (i : S8x16.Idx) (q : dot_S8x16_S16x16_S8x16_1_0_0_1_n_n.contr.Idx) :
    (dot_S8x16_S16x16_S8x16_1_0_0_1_n_n.lhsIdx i q 1).val = (q ⟨0, by decide⟩).val :=
  dot_S8x16_S16x16_S8x16_1_0_0_1_n_n.lhsIdx_val_of_single rfl i q
theorem rhsState_0 (i : S8x16.Idx) (q : dot_S8x16_S16x16_S8x16_1_0_0_1_n_n.contr.Idx) :
    (dot_S8x16_S16x16_S8x16_1_0_0_1_n_n.rhsIdx i q 0).val = (q ⟨0, by decide⟩).val :=
  dot_S8x16_S16x16_S8x16_1_0_0_1_n_n.rhsIdx_val_of_single rfl i q
theorem rhsState_1 (i : S8x16.Idx) (q : dot_S8x16_S16x16_S8x16_1_0_0_1_n_n.contr.Idx) :
    (dot_S8x16_S16x16_S8x16_1_0_0_1_n_n.rhsIdx i q 1).val = (i 1).val := by
  unfold DotDims.rhsIdx
  rw [dif_neg (show ¬(1 : Fin S16x16.rank) ∈ dot_S8x16_S16x16_S8x16_1_0_0_1_n_n.rhsBatch by decide), dif_pos (show (1 : Fin S16x16.rank) ∈ dot_S8x16_S16x16_S8x16_1_0_0_1_n_n.rhsNonContracting by decide)]
  rfl

/-- Row p of the state tile against a [16, 16] weight: entry (p, s) is Σ_k lhs (p, k) · rhs (k, s). -/
theorem prodState_apply (lhs : FVec Ideal S8x16 .bf16) (rhs : FVec Ideal S16x16 .bf16) (p : Fin 8) (s : Fin 16) :
    matmul dot_S8x16_S16x16_S8x16_1_0_0_1_n_n none lhs rhs (constant (F := Ideal) S8x16 .f32 0x00000000#32) (ix2 p s)
      = ∑ k : Fin 16, lhs (ix2 p k) * rhs (ix2 k s) := by
  simp only [matmul]
  rw [Ideal.matmul_constant_zero_apply, ← Equiv.sum_comp (contrEquiv1 dot_S8x16_S16x16_S8x16_1_0_0_1_n_n 16 rfl rfl).symm]
  refine Finset.sum_congr rfl fun k _ => ?_
  have hk := contrEquiv1_symm_val dot_S8x16_S16x16_S8x16_1_0_0_1_n_n 16 rfl rfl k
  have el : dot_S8x16_S16x16_S8x16_1_0_0_1_n_n.lhsIdx (ix2 p s) ((contrEquiv1 dot_S8x16_S16x16_S8x16_1_0_0_1_n_n 16 rfl rfl).symm k) = ix2 p k := funext fun a => Fin.ext (by
    match a with
    | ⟨0, _⟩ => exact lhsState_0 _ _
    | ⟨1, _⟩ => exact (lhsState_1 _ _).trans hk)
  have er : dot_S8x16_S16x16_S8x16_1_0_0_1_n_n.rhsIdx (ix2 p s) ((contrEquiv1 dot_S8x16_S16x16_S8x16_1_0_0_1_n_n 16 rfl rfl).symm k) = ix2 k s := funext fun a => Fin.ext (by
    match a with
    | ⟨0, _⟩ => exact (rhsState_0 _ _).trans hk
    | ⟨1, _⟩ => exact rhsState_1 _ _)
  rw [el, er]

/-! ### [16384, 16] times [16, 32] -/

theorem lhsOut_0 (i : S16384x32.Idx) (q : dot_S16384x16_S16x32_S16384x32_1_0_0_1_n_n.contr.Idx) :
    (dot_S16384x16_S16x32_S16384x32_1_0_0_1_n_n.lhsIdx i q 0).val = (i 0).val := by
  unfold DotDims.lhsIdx
  rw [dif_neg (show ¬(0 : Fin S16384x16.rank) ∈ dot_S16384x16_S16x32_S16384x32_1_0_0_1_n_n.lhsBatch by decide), dif_pos (show (0 : Fin S16384x16.rank) ∈ dot_S16384x16_S16x32_S16384x32_1_0_0_1_n_n.lhsNonContracting by decide)]
  rfl
theorem lhsOut_1 (i : S16384x32.Idx) (q : dot_S16384x16_S16x32_S16384x32_1_0_0_1_n_n.contr.Idx) :
    (dot_S16384x16_S16x32_S16384x32_1_0_0_1_n_n.lhsIdx i q 1).val = (q ⟨0, by decide⟩).val :=
  dot_S16384x16_S16x32_S16384x32_1_0_0_1_n_n.lhsIdx_val_of_single rfl i q
theorem rhsOut_0 (i : S16384x32.Idx) (q : dot_S16384x16_S16x32_S16384x32_1_0_0_1_n_n.contr.Idx) :
    (dot_S16384x16_S16x32_S16384x32_1_0_0_1_n_n.rhsIdx i q 0).val = (q ⟨0, by decide⟩).val :=
  dot_S16384x16_S16x32_S16384x32_1_0_0_1_n_n.rhsIdx_val_of_single rfl i q
theorem rhsOut_1 (i : S16384x32.Idx) (q : dot_S16384x16_S16x32_S16384x32_1_0_0_1_n_n.contr.Idx) :
    (dot_S16384x16_S16x32_S16384x32_1_0_0_1_n_n.rhsIdx i q 1).val = (i 1).val := by
  unfold DotDims.rhsIdx
  rw [dif_neg (show ¬(1 : Fin S16x32.rank) ∈ dot_S16384x16_S16x32_S16384x32_1_0_0_1_n_n.rhsBatch by decide), dif_pos (show (1 : Fin S16x32.rank) ∈ dot_S16384x16_S16x32_S16384x32_1_0_0_1_n_n.rhsNonContracting by decide)]
  rfl

/-- Flat row m of the hidden tile against a [16, 32] weight: entry (m, r) is Σ_s lhs (m, s) · rhs (s, r). -/
theorem prodOut_apply (lhs : FVec Ideal S16384x16 .bf16) (rhs : FVec Ideal S16x32 .bf16) (m : Fin 16384) (r : Fin 32) :
    matmul dot_S16384x16_S16x32_S16384x32_1_0_0_1_n_n none lhs rhs (constant (F := Ideal) S16384x32 .f32 0x00000000#32) (ix2 m r)
      = ∑ s : Fin 16, lhs (ix2 m s) * rhs (ix2 s r) := by
  simp only [matmul]
  rw [Ideal.matmul_constant_zero_apply, ← Equiv.sum_comp (contrEquiv1 dot_S16384x16_S16x32_S16384x32_1_0_0_1_n_n 16 rfl rfl).symm]
  refine Finset.sum_congr rfl fun k _ => ?_
  have hk := contrEquiv1_symm_val dot_S16384x16_S16x32_S16384x32_1_0_0_1_n_n 16 rfl rfl k
  have el : dot_S16384x16_S16x32_S16384x32_1_0_0_1_n_n.lhsIdx (ix2 m r) ((contrEquiv1 dot_S16384x16_S16x32_S16384x32_1_0_0_1_n_n 16 rfl rfl).symm k) = ix2 m k := funext fun a => Fin.ext (by
    match a with
    | ⟨0, _⟩ => exact lhsOut_0 _ _
    | ⟨1, _⟩ => exact (lhsOut_1 _ _).trans hk)
  have er : dot_S16384x16_S16x32_S16384x32_1_0_0_1_n_n.rhsIdx (ix2 m r) ((contrEquiv1 dot_S16384x16_S16x32_S16384x32_1_0_0_1_n_n 16 rfl rfl).symm k) = ix2 k r := funext fun a => Fin.ext (by
    match a with
    | ⟨0, _⟩ => exact (rhsOut_0 _ _).trans hk
    | ⟨1, _⟩ => exact rhsOut_1 _ _)
  rw [el, er]

end Products

/-! ## The products against a transposed weight

Each weight enters its product transposed, so the sum pairs the row entry with the weight's entry at (column, k): the
row factor on the left, the weight on the right. -/

section ProductsT

/-- Flat row m of the x tile against a [16, 32] weight transposed: Σ_d lhs (m, d) · w (s, d). -/
theorem prodWideT_apply (lhs : FVec Ideal S16384x32 .bf16) (w : FVec Ideal S16x32 .bf16) (h : S16x32.Transposes [1, 0] S32x16)
    (m : Fin 16384) (s : Fin 16) :
    matmul dot_S16384x32_S32x16_S16384x16_1_0_0_1_n_n none lhs (transpose S32x16 [1, 0] w h)
        (constant (F := Ideal) S16384x16 .f32 0x00000000#32) (ix2 m s)
      = ∑ d : Fin 32, lhs (ix2 m d) * w (ix2 s d) :=
  (prodWide_apply lhs _ m s).trans
    (Finset.sum_congr rfl fun d _ => congrArg (fun z => lhs (ix2 m d) * z) (swapWide_apply w h d s))

/-- Row p of the state tile against a [16, 16] weight transposed: Σ_k lhs (p, k) · w (s, k). -/
theorem prodStateT_apply (lhs : FVec Ideal S8x16 .bf16) (w : FVec Ideal S16x16 .bf16) (h : S16x16.Transposes [1, 0] S16x16)
    (p : Fin 8) (s : Fin 16) :
    matmul dot_S8x16_S16x16_S8x16_1_0_0_1_n_n none lhs (transpose S16x16 [1, 0] w h)
        (constant (F := Ideal) S8x16 .f32 0x00000000#32) (ix2 p s)
      = ∑ k : Fin 16, lhs (ix2 p k) * w (ix2 s k) :=
  (prodState_apply lhs _ p s).trans
    (Finset.sum_congr rfl fun k _ => congrArg (fun z => lhs (ix2 p k) * z) (swap16_apply w h k s))

/-- Flat row m of the hidden tile against a [32, 16] weight transposed: Σ_s lhs (m, s) · w (r, s). -/
theorem prodOutT_apply (lhs : FVec Ideal S16384x16 .bf16) (w : FVec Ideal S32x16 .bf16) (h : S32x16.Transposes [1, 0] S16x32)
    (m : Fin 16384) (r : Fin 32) :
    matmul dot_S16384x16_S16x32_S16384x32_1_0_0_1_n_n none lhs (transpose S16x32 [1, 0] w h)
        (constant (F := Ideal) S16384x32 .f32 0x00000000#32) (ix2 m r)
      = ∑ s : Fin 16, lhs (ix2 m s) * w (ix2 r s) :=
  (prodOut_apply lhs _ m r).trans
    (Finset.sum_congr rfl fun s _ => congrArg (fun z => lhs (ix2 m s) * z) (swapOut_apply w h s r))

end ProductsT

/-! ## The pointwise operations at an index -/

section Pointwise
variable {S : Shape} {φ : FTy}

/-- The logistic of a vector at an index is the logistic of the element. -/
theorem logistic_apply (a : FVec Ideal S φ) (i : S.Idx) : logistic a i = Ideal.logistic (a i) := rfl
/-- The exponential of a vector at an index is the exponential of the element. -/
theorem exp_apply (a : FVec Ideal S φ) (i : S.Idx) : exp a i = Ideal.exp (a i) := rfl

end Pointwise

/-! ## The hidden tile at an index, over abstract operands -/

/-- The hidden tile at (p, q, s), over whatever the loaded and precomputed tiles are: the pointwise combination, with
    each reshape and broadcast read at its one source position and each product written as its sum. -/
theorem hiddenTile_apply (v1 : Vec Ideal S8x16 .f32) (v3 : FVec Ideal S16384x32 .bf16) (v4 : FVec Ideal S8x16 .bf16)
    (v8 : FVec Ideal S16x16 .bf16) (v12 : FVec Ideal S16x32 .bf16) (v14 : FVec Ideal S16x16 .bf16) (v17 v18 : Vec Ideal S16 .f32)
    (v24 v27 v34 : FVec Ideal S8x2048x16 .f32) (p : Fin 8) (q : Fin 2048) (s : Fin 16) :
    k0_pay1 (F := Ideal) v1 v3 v4 v8 v12 v14 v17 v18 v24 v27 v34 (ix3 p q s)
      = ((v24 (ix3 p q s)
            + ((∑ k : Fin 16, v4 (ix2 p k) * v8 (ix2 s k)) * v1 (ix2 p s))
              * Ideal.exp (Ideal.ofBits .f32 0xBD4CCCCD#32 * Ideal.logistic (v27 (ix3 p q s) + v34 (ix3 p q s))))
          * Ideal.logistic ((∑ d : Fin 32, v3 (ix2 (flatRow p q) d) * v12 (ix2 s d)) + v17 (ix1 s)))
        * Ideal.logistic ((∑ k : Fin 16, v4 (ix2 p k) * v14 (ix2 s k)) + v18 (ix1 s)) := by
  unfold k0_pay1
  simp only [mulf_apply, addf_apply, logistic_apply, exp_apply, broadcast_apply]
  rw [spreadRow_apply, spreadRow_apply, unflatten16_apply, spreadBias3_apply]
  simp only [mulf_apply, addf_apply, logistic_apply]
  rw [prodStateT_apply, prodStateT_apply, prodWideT_apply, spreadBias2_apply]
  rfl

/-! ## The loaded and precomputed tiles at an index

The format changes are the identity on extended reals, so each loaded tile reads as the array it was loaded from; the
flattened x tile reads row (p, q) of x at flat row p · 2048 + q. -/

section Tiles

/-- The flattened x tile at flat row p · 2048 + q is row (p, q) of the x tile. -/
theorem xFlat_apply (x0 : Vec Ideal S8x2048x32 .f32) (p : Fin 8) (q : Fin 2048) (d : Fin 32) :
    k0_pay4 (F := Ideal) x0 (ix2 (flatRow p q) d) = x0 (ix3 p q d) := by
  unfold k0_pay4
  exact flatten32_apply x0 shapeCasts_S8x2048x32_S16384x32 p q d

/-- The input projection of the x tile: Σ_d x (p, q, d) · W_in (s, d). -/
theorem inTile_apply (x0 : Vec Ideal S8x2048x32 .f32) (x2 : Vec Ideal S16x32 .f32) (p : Fin 8) (q : Fin 2048) (s : Fin 16) :
    k0_pay11 (F := Ideal) x0 x2 (ix3 p q s) = ∑ d : Fin 32, x0 (ix3 p q d) * x2 (ix2 s d) := by
  unfold k0_pay11
  rw [unflatten16_apply, prodWideT_apply]
  exact Finset.sum_congr rfl fun d _ => congrArg (fun z => z * x2 (ix2 s d)) (xFlat_apply x0 p q d)

/-- The x part of the decay control: Σ_d x (p, q, d) · W_dc (s, d), over the weight's first 32 columns. -/
theorem ctxTile_apply (x0 : Vec Ideal S8x2048x32 .f32) (x9 : Vec Ideal S16x48 .f32) (p : Fin 8) (q : Fin 2048) (s : Fin 16) :
    k0_pay12 (F := Ideal) x0 x9 (ix3 p q s) = ∑ d : Fin 32, x0 (ix3 p q d) * x9 (ix2 s (headCol d)) := by
  unfold k0_pay12
  rw [unflatten16_apply, prodWideT_apply]
  refine Finset.sum_congr rfl fun d _ => ?_
  rw [xFlat_apply, headSlice_apply]
  rfl

/-- The state part of the decay control with its bias: Σ_k ps (p, k) · W_dc (s, 32 + k) + b_dc (s), the same along
    the whole time axis. -/
theorem ctxState_apply (x1 : Vec Ideal S8x16 .f32) (x9 : Vec Ideal S16x48 .f32) (x10 : Vec Ideal S16 .f32)
    (p : Fin 8) (q : Fin 2048) (s : Fin 16) :
    k0_pay13 (F := Ideal) x1 x9 x10 (ix3 p q s)
      = (∑ k : Fin 16, x1 (ix2 p k) * x9 (ix2 s (tailCol k))) + x10 (ix1 s) := by
  unfold k0_pay13
  rw [spreadRow_apply]
  simp only [addf_apply]
  rw [prodStateT_apply, spreadBias2_apply]
  refine congrArg (fun z => z + x10 (ix1 s)) (Finset.sum_congr rfl fun k _ => ?_)
  rw [tailSlice_apply]
  rfl

end Tiles

/-! ## The hidden tile and the two stored tiles are the specification, element by element -/

section Cells

/-- The hidden tile at (p, q, s) is the specification's hidden value of row (p, q) of x and row p of the state. -/
theorem hidden_cell (x0 : Vec Ideal S8x2048x32 .f32) (x1 : Vec Ideal S8x16 .f32) (x2 : Vec Ideal S16x32 .f32)
    (x3 : Vec Ideal S16x16 .f32) (x5 : Vec Ideal S16x32 .f32) (x6 : Vec Ideal S16 .f32) (x7 : Vec Ideal S16x16 .f32)
    (x8 : Vec Ideal S16 .f32) (x9 : Vec Ideal S16x48 .f32) (x10 : Vec Ideal S16 .f32) (p : Fin 8) (q : Fin 2048) (s : Fin 16) :
    k0_pay1 (F := Ideal) x1 (k0_pay4 x0) (k0_pay5 x1) (k0_pay6 x3) (k0_pay8 x5) (k0_pay9 x7) x6 x8 (k0_pay11 x0 x2) (k0_pay12 x0 x9) (k0_pay13 x1 x9 x10) (ix3 p q s)
      = hidden (rowOf x0 p q) (stateOf x1 p) x2 x3 x5 x6 x7 x8 x9 x10 s := by
  rw [hiddenTile_apply, inTile_apply, ctxTile_apply, ctxState_apply]
  have hx : (∑ d : Fin 32, k0_pay4 (F := Ideal) x0 (ix2 (flatRow p q) d) * k0_pay8 (F := Ideal) x5 (ix2 s d))
      = ∑ d : Fin 32, x0 (ix3 p q d) * x5 (ix2 s d) :=
    Finset.sum_congr rfl fun d _ => congrArg (fun z => z * x5 (ix2 s d)) (xFlat_apply x0 p q d)
  rw [hx]
  rfl

/-- THE OUT TILE: entry (p, q, r) is the projected value of row (p, q) of x and row p of the state. The hidden tile is
    flattened, so flat row p · 2048 + q against the transposed output projection sums the hidden values of that row. -/
theorem out_cell (x0 : Vec Ideal S8x2048x32 .f32) (x1 : Vec Ideal S8x16 .f32) (x2 : Vec Ideal S16x32 .f32)
    (x3 : Vec Ideal S16x16 .f32) (x4 : Vec Ideal S32x16 .f32) (x5 : Vec Ideal S16x32 .f32) (x6 : Vec Ideal S16 .f32)
    (x7 : Vec Ideal S16x16 .f32) (x8 : Vec Ideal S16 .f32) (x9 : Vec Ideal S16x48 .f32) (x10 : Vec Ideal S16 .f32)
    (p : Fin 8) (q : Fin 2048) (r : Fin 32) :
    k0_pay2 (F := Ideal) x1 (k0_pay4 x0) (k0_pay5 x1) (k0_pay6 x3) (k0_pay7 x4) (k0_pay8 x5) (k0_pay9 x7) x6 x8 (k0_pay11 x0 x2) (k0_pay12 x0 x9) (k0_pay13 x1 x9 x10) (ix3 p q r)
      = projected (rowOf x0 p q) (stateOf x1 p) x2 x3 x4 x5 x6 x7 x8 x9 x10 r := by
  unfold k0_pay2
  rw [unflatten32_apply, prodOutT_apply]
  unfold projected
  exact Finset.sum_congr rfl fun s _ => congrArg (fun z => z * x4 (ix2 r s))
    ((flatten16_apply
        (k0_pay1 (F := Ideal) x1 (k0_pay4 x0) (k0_pay5 x1) (k0_pay6 x3) (k0_pay8 x5) (k0_pay9 x7) x6 x8 (k0_pay11 x0 x2) (k0_pay12 x0 x9) (k0_pay13 x1 x9 x10))
        shapeCasts_S8x2048x16_S16384x16 p q s).trans (hidden_cell x0 x1 x2 x3 x5 x6 x7 x8 x9 x10 p q s))

/-- THE LAST-STATE TILE: entry (p, s) is the hidden value of channel s at time row 2047 of the tile. -/
theorem last_cell (x0 : Vec Ideal S8x2048x32 .f32) (x1 : Vec Ideal S8x16 .f32) (x2 : Vec Ideal S16x32 .f32)
    (x3 : Vec Ideal S16x16 .f32) (x5 : Vec Ideal S16x32 .f32) (x6 : Vec Ideal S16 .f32) (x7 : Vec Ideal S16x16 .f32)
    (x8 : Vec Ideal S16 .f32) (x9 : Vec Ideal S16x48 .f32) (x10 : Vec Ideal S16 .f32) (p : Fin 8) (s : Fin 16) :
    k0_pay3 (F := Ideal) x1 (k0_pay4 x0) (k0_pay5 x1) (k0_pay6 x3) (k0_pay8 x5) (k0_pay9 x7) x6 x8 (k0_pay11 x0 x2) (k0_pay12 x0 x9) (k0_pay13 x1 x9 x10) (ix2 p s)
      = hidden (rowOf x0 p (⟨2047, by omega⟩ : Fin 2048)) (stateOf x1 p) x2 x3 x5 x6 x7 x8 x9 x10 s := by
  unfold k0_pay3
  rw [dropTime_apply, lastSlice_apply]
  exact hidden_cell x0 x1 x2 x3 x5 x6 x7 x8 x9 x10 p lastRow s

end Cells

end Cert.KernelIdeal.Cell

end
-- ==== Proof.Whole.lean ====
/-
  From tiles to the whole results.

  The kernel walks a grid of 8 batch tiles by 4 time tiles. At step t it holds the tile of x with batch rows
  8·ib … 8·ib + 7 and time steps 2048·it … 2048·it + 2047, the eight matching rows of the previous state, and every
  weight whole; it writes back the matching tile of the first result at every step, and the matching eight rows of the
  second result at the steps of the last time tile only. An entry of either result tile depends on the inputs only
  through one row of x and one row of the state, and those rows are the arrays' rows at the entry's position in the
  whole result. So what every writing step writes back is its tile of ONE function of the argument arrays, the
  specification's; the tiles of the first result cover it (position (b, t, r) lies in batch tile b / 8, time tile
  t / 2048), the last-time-tile tiles of the second result cover it (position (b, s) lies in batch tile b / 8), and an
  array covered by tiles of one function ends holding that function.
-/
import proofs.«147952_j78262894068472_1_alg».proof.Proof.Spec
import proofs.«147952_j78262894068472_1_alg».proof.Proof.Pieces
import proofs.«147952_j78262894068472_1_alg».proof.Proof.KernelCell
import proofs.«147952_j78262894068472_1_alg».proof.Proof.Gen.KernelIdeal.Value
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.GatedState Cert.KernelIdeal.Found
open Idealize.ShloMosaic.Pipeline (Dat)

/-! ## A tile's entry is the whole result's entry when the rows it depends on agree -/

/-- Entry (p, q, r) of the first result's tile is entry I of the whole first result, when row (p, q) of the x tile is
    row (I₀, I₁) of x, row p of the state tile is row I₀ of the state, the feature is the same and the weights are the
    whole weights: the entry is a function of those two rows and the weights alone. -/
theorem outTile_at (x0 : Vec Ideal S8x2048x32 .f32) (x1 : Vec Ideal S8x16 .f32) (x2 : Vec Ideal S16x32 .f32) (x3 : Vec Ideal S16x16 .f32) (x4 : Vec Ideal S32x16 .f32) (x5 : Vec Ideal S16x32 .f32) (x6 : Vec Ideal S16 .f32) (x7 : Vec Ideal S16x16 .f32) (x8 : Vec Ideal S16 .f32) (x9 : Vec Ideal S16x48 .f32) (x10 : Vec Ideal S16 .f32) (X : Cube 64 8192 32) (P : Mat 64 16) (p : Fin 8) (q : Fin 2048) (r : Fin 32) (I : S64x8192x32.Idx)
    (hx : ∀ d : Fin 32, x0 (ix3 p q d) = X (ix3 (I 0) (I 1) d))
    (hp : ∀ k : Fin 16, x1 (ix2 p k) = P (ix2 (I 0) k))
    (hr : (I 2).val = r.val) :
    outTile x0 x1 x2 x3 x4 x5 x6 x7 x8 x9 x10 (ix3 p q r) = outAll X P x2 x3 x4 x5 x6 x7 x8 x9 x10 I := by
  obtain ⟨b, tt, r', rfl⟩ : ∃ (b : Fin 64) (tt : Fin 8192) (r' : Fin 32), I = ix3 b tt r' := ⟨I 0, I 1, I 2, eq_ix3 I⟩
  obtain rfl : r' = r := Fin.ext hr
  rw [outAll_apply]
  refine (Cell.out_cell x0 x1 x2 x3 x4 x5 x6 x7 x8 x9 x10 p q r').trans ?_
  rw [show rowOf x0 p q = rowOf X b tt from funext hx, show stateOf x1 p = stateOf P b from funext hp]

/-- Entry (p, s) of the second result's tile is entry I of the whole second result, when the tile's last row of x at p is
    the sequence's last row of x at I₀ and the state rows agree. -/
theorem lastTile_at (x0 : Vec Ideal S8x2048x32 .f32) (x1 : Vec Ideal S8x16 .f32) (x2 : Vec Ideal S16x32 .f32) (x3 : Vec Ideal S16x16 .f32) (x4 : Vec Ideal S32x16 .f32) (x5 : Vec Ideal S16x32 .f32) (x6 : Vec Ideal S16 .f32) (x7 : Vec Ideal S16x16 .f32) (x8 : Vec Ideal S16 .f32) (x9 : Vec Ideal S16x48 .f32) (x10 : Vec Ideal S16 .f32) (X : Cube 64 8192 32) (P : Mat 64 16) (p : Fin 8) (s : Fin 16) (I : S64x16.Idx)
    (hx : ∀ d : Fin 32, x0 (ix3 p (⟨2047, by omega⟩ : Fin 2048) d) = X (ix3 (I 0) lastStep d))
    (hp : ∀ k : Fin 16, x1 (ix2 p k) = P (ix2 (I 0) k))
    (hs : (I 1).val = s.val) :
    lastTile x0 x1 x2 x3 x4 x5 x6 x7 x8 x9 x10 (ix2 p s) = lastAll X P x2 x3 x5 x6 x7 x8 x9 x10 I := by
  obtain ⟨b, s', rfl⟩ : ∃ (b : Fin 64) (s' : Fin 16), I = ix2 b s' := ⟨I 0, I 1, eq_ix2 I⟩
  obtain rfl : s' = s := Fin.ext hs
  rw [lastAll_apply]
  refine (Cell.last_cell x0 x1 x2 x3 x5 x6 x7 x8 x9 x10 p s').trans ?_
  rw [show rowOf x0 p (⟨2047, by omega⟩ : Fin 2048) = rowOf X b lastStep from funext hx, show stateOf x1 p = stateOf P b from funext hp]

variable (m : (ℓ : Loc nD τ sig) → Buf (Elt Ideal) ℓ) (ρ : Dev nD → PrngReg)

/-! ## The weights' tiles are the weights: their block index never moves from the origin -/

theorem still2 : ∀ t : Fin cfg0.N, win0_2.index t (0 : Fin 2) = 0 ∧ win0_2.index t (1 : Fin 2) = 0 :=
  (by decide +kernel : ∀ t : Fin grid0.N, _)
theorem whole2 (c : Dev nD) (t : Fin cfg0.N) : (iblk m c 2 t : Vec Ideal S16x32 .f32) = V m c main_arg2 := by
  funext y
  show V m c main_arg2 (((cfg0.win 2).blk t).view.emb y) = V m c main_arg2 y
  refine congrArg _ (funext fun a => Fin.ext ?_)
  obtain ⟨e0, e1⟩ := still2 t
  match a with
  | ⟨0, _⟩ => show win0_2.index t (0 : Fin 2) * 16 + 1 * (y 0).val = (y 0).val; omega
  | ⟨1, _⟩ => show win0_2.index t (1 : Fin 2) * 32 + 1 * (y 1).val = (y 1).val; omega

theorem still3 : ∀ t : Fin cfg0.N, win0_3.index t (0 : Fin 2) = 0 ∧ win0_3.index t (1 : Fin 2) = 0 :=
  (by decide +kernel : ∀ t : Fin grid0.N, _)
theorem whole3 (c : Dev nD) (t : Fin cfg0.N) : (iblk m c 3 t : Vec Ideal S16x16 .f32) = V m c main_arg3 := by
  funext y
  show V m c main_arg3 (((cfg0.win 3).blk t).view.emb y) = V m c main_arg3 y
  refine congrArg _ (funext fun a => Fin.ext ?_)
  obtain ⟨e0, e1⟩ := still3 t
  match a with
  | ⟨0, _⟩ => show win0_3.index t (0 : Fin 2) * 16 + 1 * (y 0).val = (y 0).val; omega
  | ⟨1, _⟩ => show win0_3.index t (1 : Fin 2) * 16 + 1 * (y 1).val = (y 1).val; omega

theorem still4 : ∀ t : Fin cfg0.N, win0_4.index t (0 : Fin 2) = 0 ∧ win0_4.index t (1 : Fin 2) = 0 :=
  (by decide +kernel : ∀ t : Fin grid0.N, _)
theorem whole4 (c : Dev nD) (t : Fin cfg0.N) : (iblk m c 4 t : Vec Ideal S32x16 .f32) = V m c main_arg4 := by
  funext y
  show V m c main_arg4 (((cfg0.win 4).blk t).view.emb y) = V m c main_arg4 y
  refine congrArg _ (funext fun a => Fin.ext ?_)
  obtain ⟨e0, e1⟩ := still4 t
  match a with
  | ⟨0, _⟩ => show win0_4.index t (0 : Fin 2) * 32 + 1 * (y 0).val = (y 0).val; omega
  | ⟨1, _⟩ => show win0_4.index t (1 : Fin 2) * 16 + 1 * (y 1).val = (y 1).val; omega

theorem still5 : ∀ t : Fin cfg0.N, win0_5.index t (0 : Fin 2) = 0 ∧ win0_5.index t (1 : Fin 2) = 0 :=
  (by decide +kernel : ∀ t : Fin grid0.N, _)
theorem whole5 (c : Dev nD) (t : Fin cfg0.N) : (iblk m c 5 t : Vec Ideal S16x32 .f32) = V m c main_arg5 := by
  funext y
  show V m c main_arg5 (((cfg0.win 5).blk t).view.emb y) = V m c main_arg5 y
  refine congrArg _ (funext fun a => Fin.ext ?_)
  obtain ⟨e0, e1⟩ := still5 t
  match a with
  | ⟨0, _⟩ => show win0_5.index t (0 : Fin 2) * 16 + 1 * (y 0).val = (y 0).val; omega
  | ⟨1, _⟩ => show win0_5.index t (1 : Fin 2) * 32 + 1 * (y 1).val = (y 1).val; omega

theorem still6 : ∀ t : Fin cfg0.N, win0_6.index t (0 : Fin 1) = 0 :=
  (by decide +kernel : ∀ t : Fin grid0.N, _)
theorem whole6 (c : Dev nD) (t : Fin cfg0.N) : (iblk m c 6 t : Vec Ideal S16 .f32) = V m c main_arg6 := by
  funext y
  show V m c main_arg6 (((cfg0.win 6).blk t).view.emb y) = V m c main_arg6 y
  refine congrArg _ (funext fun a => Fin.ext ?_)
  have e0 := still6 t
  match a with
  | ⟨0, _⟩ => show win0_6.index t (0 : Fin 1) * 16 + 1 * (y 0).val = (y 0).val; omega

theorem still7 : ∀ t : Fin cfg0.N, win0_7.index t (0 : Fin 2) = 0 ∧ win0_7.index t (1 : Fin 2) = 0 :=
  (by decide +kernel : ∀ t : Fin grid0.N, _)
theorem whole7 (c : Dev nD) (t : Fin cfg0.N) : (iblk m c 7 t : Vec Ideal S16x16 .f32) = V m c main_arg7 := by
  funext y
  show V m c main_arg7 (((cfg0.win 7).blk t).view.emb y) = V m c main_arg7 y
  refine congrArg _ (funext fun a => Fin.ext ?_)
  obtain ⟨e0, e1⟩ := still7 t
  match a with
  | ⟨0, _⟩ => show win0_7.index t (0 : Fin 2) * 16 + 1 * (y 0).val = (y 0).val; omega
  | ⟨1, _⟩ => show win0_7.index t (1 : Fin 2) * 16 + 1 * (y 1).val = (y 1).val; omega

theorem still8 : ∀ t : Fin cfg0.N, win0_8.index t (0 : Fin 1) = 0 :=
  (by decide +kernel : ∀ t : Fin grid0.N, _)
theorem whole8 (c : Dev nD) (t : Fin cfg0.N) : (iblk m c 8 t : Vec Ideal S16 .f32) = V m c main_arg8 := by
  funext y
  show V m c main_arg8 (((cfg0.win 8).blk t).view.emb y) = V m c main_arg8 y
  refine congrArg _ (funext fun a => Fin.ext ?_)
  have e0 := still8 t
  match a with
  | ⟨0, _⟩ => show win0_8.index t (0 : Fin 1) * 16 + 1 * (y 0).val = (y 0).val; omega

theorem still9 : ∀ t : Fin cfg0.N, win0_9.index t (0 : Fin 2) = 0 ∧ win0_9.index t (1 : Fin 2) = 0 :=
  (by decide +kernel : ∀ t : Fin grid0.N, _)
theorem whole9 (c : Dev nD) (t : Fin cfg0.N) : (iblk m c 9 t : Vec Ideal S16x48 .f32) = V m c main_arg9 := by
  funext y
  show V m c main_arg9 (((cfg0.win 9).blk t).view.emb y) = V m c main_arg9 y
  refine congrArg _ (funext fun a => Fin.ext ?_)
  obtain ⟨e0, e1⟩ := still9 t
  match a with
  | ⟨0, _⟩ => show win0_9.index t (0 : Fin 2) * 16 + 1 * (y 0).val = (y 0).val; omega
  | ⟨1, _⟩ => show win0_9.index t (1 : Fin 2) * 48 + 1 * (y 1).val = (y 1).val; omega

theorem still10 : ∀ t : Fin cfg0.N, win0_10.index t (0 : Fin 1) = 0 :=
  (by decide +kernel : ∀ t : Fin grid0.N, _)
theorem whole10 (c : Dev nD) (t : Fin cfg0.N) : (iblk m c 10 t : Vec Ideal S16 .f32) = V m c main_arg10 := by
  funext y
  show V m c main_arg10 (((cfg0.win 10).blk t).view.emb y) = V m c main_arg10 y
  refine congrArg _ (funext fun a => Fin.ext ?_)
  have e0 := still10 t
  match a with
  | ⟨0, _⟩ => show win0_10.index t (0 : Fin 1) * 16 + 1 * (y 0).val = (y 0).val; omega

/-! ## The moving windows: x, the state and the two results move together over the grid -/

/-- Decided over the 32 grid steps: the x tile and the first result's tile have the same block index (batch tile, time
    tile, 0); the state tile and the second result's tile have block index (batch tile, 0); a step whose number is 3
    modulo 4 is in the last of the four time tiles. -/
theorem moves : ∀ t : Fin cfg0.N,
    win0_0.index t (0 : Fin 3) = win0_11.index t (0 : Fin 3) ∧ win0_0.index t (1 : Fin 3) = win0_11.index t (1 : Fin 3)
    ∧ win0_0.index t (2 : Fin 3) = 0
    ∧ win0_1.index t (0 : Fin 2) = win0_11.index t (0 : Fin 3) ∧ win0_1.index t (1 : Fin 2) = 0
    ∧ win0_11.index t (2 : Fin 3) = 0
    ∧ win0_12.index t (0 : Fin 2) = win0_11.index t (0 : Fin 3) ∧ win0_12.index t (1 : Fin 2) = 0
    ∧ (t.val % 4 = 3 → win0_11.index t (1 : Fin 3) = 3) :=
  (by decide +kernel : ∀ t : Fin grid0.N, _)

/-- Every (batch tile, time tile) is some step's block index for the first result. -/
theorem onto11 : ∀ (q0 : Fin 8) (q1 : Fin 4), ∃ t : Fin cfg0.N, win0_11.index t = ![q0.val, q1.val, 0] :=
  (by decide +kernel : ∀ (q0 : Fin 8) (q1 : Fin 4), ∃ t : Fin grid0.N, win0_11.index t = ![q0.val, q1.val, 0])

/-- Every batch tile is the second result's block index at some step of the last time tile. -/
theorem onto12 : ∀ (q0 : Fin 8), ∃ t : Fin cfg0.N, t.val % 4 = 3 ∧ win0_12.index t = ![q0.val, 0] :=
  (by decide +kernel : ∀ (q0 : Fin 8), ∃ t : Fin grid0.N, t.val % 4 = 3 ∧ win0_12.index t = ![q0.val, 0])

/-! ## What a step writes back is its tile of the whole result -/

/-- Entry j of the first result's tile at step t, computed from the step's input tiles, is the whole first result at the
    array position of j: rows (p, q) of the x tile and p of the state tile are the arrays' rows at that position. -/
theorem tile11_at (c : Dev nD) (t : Fin cfg0.N) (j : S8x2048x32.Idx) :
    outTile (iblk m c 0 t) (iblk m c 1 t) (iblk m c 2 t) (iblk m c 3 t) (iblk m c 4 t) (iblk m c 5 t) (iblk m c 6 t) (iblk m c 7 t) (iblk m c 8 t) (iblk m c 9 t) (iblk m c 10 t) j
      = outAll (V m c main_arg0) (V m c main_arg1) (V m c main_arg2) (V m c main_arg3) (V m c main_arg4) (V m c main_arg5) (V m c main_arg6) (V m c main_arg7) (V m c main_arg8) (V m c main_arg9) (V m c main_arg10) (((cfg0.win 11).blk t).view.emb j) := by
  obtain ⟨p, q, r, rfl⟩ : ∃ (p : Fin 8) (q : Fin 2048) (r : Fin 32), j = ix3 p q r := ⟨j 0, j 1, j 2, eq_ix3 j⟩
  rw [whole2 m c t, whole3 m c t, whole4 m c t, whole5 m c t, whole6 m c t, whole7 m c t, whole8 m c t, whole9 m c t, whole10 m c t]
  obtain ⟨e00, e01, e02, e10, e11, e112, e120, e121, elast⟩ := moves t
  refine outTile_at (iblk m c 0 t) (iblk m c 1 t) (V m c main_arg2) (V m c main_arg3) (V m c main_arg4) (V m c main_arg5) (V m c main_arg6) (V m c main_arg7) (V m c main_arg8) (V m c main_arg9) (V m c main_arg10) (V m c main_arg0) (V m c main_arg1) p q r _ ?_ ?_ ?_
  · intro d
    show V m c main_arg0 (((cfg0.win 0).blk t).view.emb (ix3 p q d)) = V m c main_arg0 _
    refine congrArg _ (funext fun a => Fin.ext ?_)
    match a with
    | ⟨0, _⟩ => show win0_0.index t (0 : Fin 3) * 8 + 1 * p.val = win0_11.index t (0 : Fin 3) * 8 + 1 * p.val; omega
    | ⟨1, _⟩ => show win0_0.index t (1 : Fin 3) * 2048 + 1 * q.val = win0_11.index t (1 : Fin 3) * 2048 + 1 * q.val; omega
    | ⟨2, _⟩ => show win0_0.index t (2 : Fin 3) * 32 + 1 * d.val = d.val; omega
  · intro k
    show V m c main_arg1 (((cfg0.win 1).blk t).view.emb (ix2 p k)) = V m c main_arg1 _
    refine congrArg _ (funext fun a => Fin.ext ?_)
    match a with
    | ⟨0, _⟩ => show win0_1.index t (0 : Fin 2) * 8 + 1 * p.val = win0_11.index t (0 : Fin 3) * 8 + 1 * p.val; omega
    | ⟨1, _⟩ => show win0_1.index t (1 : Fin 2) * 16 + 1 * k.val = k.val; omega
  · show win0_11.index t (2 : Fin 3) * 32 + 1 * r.val = r.val; omega

/-- WHAT STEP t WRITES BACK to the first result is tile t of the whole first result, at every step. -/
theorem flushed11_eq (c : Dev nD) (t : Fin cfg0.N) :
    (dats m 0 c).flushed 11 t = ((cfg0.win 11).blk t).view.read (Elt Ideal) (outAll (V m c main_arg0) (V m c main_arg1) (V m c main_arg2) (V m c main_arg3) (V m c main_arg4) (V m c main_arg5) (V m c main_arg6) (V m c main_arg7) (V m c main_arg8) (V m c main_arg9) (V m c main_arg10)) := by
  by_cases h0 : t.val % 4 = 3
  · rw [Value.flushed11_B m c t h0,
      out_late c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)]
    funext j; exact tile11_at m c t j
  · rw [Value.flushed11_A m c t h0,
      out_early c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)]
    funext j; exact tile11_at m c t j

/-- Entry j of the second result's tile at a step of the last time tile is the whole second result at the array position
    of j: the tile's last row of x is the sequence's last row (time tile 3, row 2047: step 8191). -/
theorem tile12_at (c : Dev nD) (t : Fin cfg0.N) (h0 : t.val % 4 = 3) (j : S8x16.Idx) :
    lastTile (iblk m c 0 t) (iblk m c 1 t) (iblk m c 2 t) (iblk m c 3 t) (iblk m c 4 t) (iblk m c 5 t) (iblk m c 6 t) (iblk m c 7 t) (iblk m c 8 t) (iblk m c 9 t) (iblk m c 10 t) j
      = lastAll (V m c main_arg0) (V m c main_arg1) (V m c main_arg2) (V m c main_arg3) (V m c main_arg5) (V m c main_arg6) (V m c main_arg7) (V m c main_arg8) (V m c main_arg9) (V m c main_arg10) (((cfg0.win 12).blk t).view.emb j) := by
  obtain ⟨p, s, rfl⟩ : ∃ (p : Fin 8) (s : Fin 16), j = ix2 p s := ⟨j 0, j 1, eq_ix2 j⟩
  rw [whole2 m c t, whole3 m c t, whole4 m c t, whole5 m c t, whole6 m c t, whole7 m c t, whole8 m c t, whole9 m c t, whole10 m c t]
  obtain ⟨e00, e01, e02, e10, e11, e112, e120, e121, elast⟩ := moves t
  have e3 := elast h0
  refine lastTile_at (iblk m c 0 t) (iblk m c 1 t) (V m c main_arg2) (V m c main_arg3) (V m c main_arg4) (V m c main_arg5) (V m c main_arg6) (V m c main_arg7) (V m c main_arg8) (V m c main_arg9) (V m c main_arg10) (V m c main_arg0) (V m c main_arg1) p s _ ?_ ?_ ?_
  · intro d
    show V m c main_arg0 (((cfg0.win 0).blk t).view.emb (ix3 p (⟨2047, by omega⟩ : Fin 2048) d)) = V m c main_arg0 _
    refine congrArg _ (funext fun a => Fin.ext ?_)
    match a with
    | ⟨0, _⟩ => show win0_0.index t (0 : Fin 3) * 8 + 1 * p.val = win0_12.index t (0 : Fin 2) * 8 + 1 * p.val; omega
    | ⟨1, _⟩ => show win0_0.index t (1 : Fin 3) * 2048 + 1 * 2047 = 8191; omega
    | ⟨2, _⟩ => show win0_0.index t (2 : Fin 3) * 32 + 1 * d.val = d.val; omega
  · intro k
    show V m c main_arg1 (((cfg0.win 1).blk t).view.emb (ix2 p k)) = V m c main_arg1 _
    refine congrArg _ (funext fun a => Fin.ext ?_)
    match a with
    | ⟨0, _⟩ => show win0_1.index t (0 : Fin 2) * 8 + 1 * p.val = win0_12.index t (0 : Fin 2) * 8 + 1 * p.val; omega
    | ⟨1, _⟩ => show win0_1.index t (1 : Fin 2) * 16 + 1 * k.val = k.val; omega
  · show win0_12.index t (1 : Fin 2) * 16 + 1 * s.val = s.val; omega

/-- WHAT A WRITING STEP WRITES BACK to the second result (the steps of the last time tile, the only ones that write it
    back) is its tile of the whole second result. -/
theorem flushed12_eq (c : Dev nD) (t : Fin cfg0.N) (hf : (cfg0.win 12).flush t = true) :
    (dats m 0 c).flushed 12 t = ((cfg0.win 12).blk t).view.read (Elt Ideal) (lastAll (V m c main_arg0) (V m c main_arg1) (V m c main_arg2) (V m c main_arg3) (V m c main_arg5) (V m c main_arg6) (V m c main_arg7) (V m c main_arg8) (V m c main_arg9) (V m c main_arg10)) := by
  have h0 : t.val % 4 = 3 := (flush0_12 t).mp hf
  rw [Value.flushed12_B m c t h0,
    last_late c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)]
  funext j; exact tile12_at m c t h0 j

/-! ## The tiles cover the results -/

/-- A position of the first result lies in step t's tile iff each coordinate lies in the tile's range on its axis. -/
theorem mem_blk11 (t : Fin cfg0.N) (i : S64x8192x32.Idx) :
    i ∈ ((cfg0.win 11).blk t).view.set ↔ ∀ a : Fin 3, win0_11.index t a * S8x2048x32.size a ≤ (i a).val ∧ (i a).val < win0_11.index t a * S8x2048x32.size a + S8x2048x32.size a := by
  show i ∈ ((View.whole main_v0_0).slice (win0_11.rect t)).set ↔ _
  rw [View.set_slice_whole, Rect.mem_set_unit]
  exact Iff.rfl

theorem mem_blk12 (t : Fin cfg0.N) (i : S64x16.Idx) :
    i ∈ ((cfg0.win 12).blk t).view.set ↔ ∀ a : Fin 2, win0_12.index t a * S8x16.size a ≤ (i a).val ∧ (i a).val < win0_12.index t a * S8x16.size a + S8x16.size a := by
  show i ∈ ((View.whole main_v0_1).slice (win0_12.rect t)).set ↔ _
  rw [View.set_slice_whole, Rect.mem_set_unit]
  exact Iff.rfl

/-- Position (b, t, r) of the first result is in the tile of the step with batch tile b / 8 and time tile t / 2048. -/
theorem cover11 (i : S64x8192x32.Idx) : ∃ t : Fin cfg0.N, (cfg0.win 11).flush t = true ∧ i ∈ ((cfg0.win 11).blk t).view.set := by
  have hi0 : (i 0).val < 64 := (i 0).isLt
  have hi1 : (i 1).val < 8192 := (i 1).isLt
  have hi2 : (i 2).val < 32 := (i 2).isLt
  obtain ⟨t, ht⟩ := onto11 ⟨(i 0).val / 8, by omega⟩ ⟨(i 1).val / 2048, by omega⟩
  have q0 : win0_11.index t (0 : Fin 3) = (i 0).val / 8 := congrFun ht 0
  have q1 : win0_11.index t (1 : Fin 3) = (i 1).val / 2048 := congrFun ht 1
  have q2 : win0_11.index t (2 : Fin 3) = 0 := congrFun ht 2
  refine ⟨t, flush0_11 t, ?_⟩
  rw [mem_blk11]
  intro a
  match a with
  | ⟨0, _⟩ => show win0_11.index t (0 : Fin 3) * 8 ≤ (i 0).val ∧ (i 0).val < win0_11.index t (0 : Fin 3) * 8 + 8; omega
  | ⟨1, _⟩ => show win0_11.index t (1 : Fin 3) * 2048 ≤ (i 1).val ∧ (i 1).val < win0_11.index t (1 : Fin 3) * 2048 + 2048; omega
  | ⟨2, _⟩ => show win0_11.index t (2 : Fin 3) * 32 ≤ (i 2).val ∧ (i 2).val < win0_11.index t (2 : Fin 3) * 32 + 32; omega

/-- Position (b, s) of the second result is in the tile of the last-time-tile step with batch tile b / 8. -/
theorem cover12 (i : S64x16.Idx) : ∃ t : Fin cfg0.N, (cfg0.win 12).flush t = true ∧ i ∈ ((cfg0.win 12).blk t).view.set := by
  have hi0 : (i 0).val < 64 := (i 0).isLt
  have hi1 : (i 1).val < 16 := (i 1).isLt
  obtain ⟨t, h3, ht⟩ := onto12 ⟨(i 0).val / 8, by omega⟩
  have q0 : win0_12.index t (0 : Fin 2) = (i 0).val / 8 := congrFun ht 0
  have q1 : win0_12.index t (1 : Fin 2) = 0 := congrFun ht 1
  refine ⟨t, (flush0_12 t).mpr h3, ?_⟩
  rw [mem_blk12]
  intro a
  match a with
  | ⟨0, _⟩ => show win0_12.index t (0 : Fin 2) * 8 ≤ (i 0).val ∧ (i 0).val < win0_12.index t (0 : Fin 2) * 8 + 8; omega
  | ⟨1, _⟩ => show win0_12.index t (1 : Fin 2) * 16 ≤ (i 1).val ∧ (i 1).val < win0_12.index t (1 : Fin 2) * 16 + 16; omega

/-! ## The results after the run -/

/-- THE FIRST RESULT after the run is the whole first result of the arguments as launched. -/
theorem final11 (c : Dev nD) : (dats m 0 c).arrAt 11 cfg0.N = outAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 11 (outAll (V m c main_arg0) (V m c main_arg1) (V m c main_arg2) (V m c main_arg3) (V m c main_arg4) (V m c main_arg5) (V m c main_arg6) (V m c main_arg7) (V m c main_arg8) (V m c main_arg9) (V m c main_arg10)) (fun t _ => flushed11_eq m c t) cover11

/-- THE SECOND RESULT after the run is the whole second result of the arguments as launched. -/
theorem final12 (c : Dev nD) : (dats m 0 c).arrAt 12 cfg0.N = lastAll (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 12 (lastAll (V m c main_arg0) (V m c main_arg1) (V m c main_arg2) (V m c main_arg3) (V m c main_arg5) (V m c main_arg6) (V m c main_arg7) (V m c main_arg8) (V m c main_arg9) (V m c main_arg10)) (fun t hf => flushed12_eq m c t hf) cover12

/-- The kernel's run, read: every weakly fair execution ends with the two results at the specification's functions of the
    arguments and the arguments unchanged. -/
theorem run : θ_run defs (onTc (τ := τ) (main (F := Ideal))) ⟨m, fun _ => 0, ρ⟩ fun r => ∀ c : Dev nD,
      r.2.mem ((c : Thread nD τ).loc main_v0_0) = outAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v0_1) = lastAll (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final11 m c), (h c).2.1.trans (final12 m c), (h c).2.2⟩)
    (Value.run_blocks m ρ)

end Cert.KernelIdeal.Whole

end
-- ==== Proof.lean ====
/-
  A gated state-space layer without recurrence, tiled over batch and time, against its plain array formulation:
  the two compute the same two results over the extended reals.

  For every batch row b, time step t and state channel s both programs form the hidden value
      h = (x[b,t,:]·W_in[s,:] + ((prev[b,:]·W_s[s,:]) · prev[b,s]) · exp(c · σ(x[b,t,:]·W_dc[s,:32] + (prev[b,:]·W_dc[s,32:] + b_dc[s]))))
            · σ(x[b,t,:]·W_gx[s,:] + b_gx[s]) · σ(prev[b,:]·W_gs[s,:] + b_gs[s]),
  the first result is h[b,t,:]·W_out[r,:] and the second is h at the last time step. The kernel computes h for a tile
  of 8 batch rows by 2048 time steps at once, as matrix products of the flattened tile with the transposed weights,
  and uses the logistic function as one operation; the reference contracts whole arrays and spells the logistic
  function as 1 / (1 + e^(−z)). Read one entry at a time these are the same sums of the same products in the same
  order, and the same logistic function, so no law of the extended reals beyond that reading is needed and the
  precondition on the inputs is never opened. The specification is Proof/Spec.lean; the reference is read against it
  in Proof/RefValue.lean; the kernel's arithmetic at one tile entry in Proof/KernelCell.lean; what a grid step leaves
  in its output tiles in Proof/Pieces.lean; the tiles assembled into the whole results in Proof/Whole.lean. The three
  programs' runs (termination, no fault, arguments unchanged) are the generated frames and the reference's generated
  run; the kernel's idealization rewrote nothing.
-/
import proofs.«147952_j78262894068472_1_alg».proof.Defs
import proofs.«147952_j78262894068472_1_alg».proof.Proof.Gen.Kernel
import proofs.«147952_j78262894068472_1_alg».proof.Proof.Gen.Kernel.Skeleton
import proofs.«147952_j78262894068472_1_alg».proof.Proof.Gen.Kernel.Launch
import proofs.«147952_j78262894068472_1_alg».proof.Proof.Gen.Kernel.Points
import proofs.«147952_j78262894068472_1_alg».proof.Proof.Gen.Kernel.Frame
import proofs.«147952_j78262894068472_1_alg».proof.Proof.Gen.KernelIdeal
import proofs.«147952_j78262894068472_1_alg».proof.Proof.Gen.KernelIdeal.Skeleton
import proofs.«147952_j78262894068472_1_alg».proof.Proof.Gen.KernelIdeal.Launch
import proofs.«147952_j78262894068472_1_alg».proof.Proof.Gen.KernelIdeal.Points
import proofs.«147952_j78262894068472_1_alg».proof.Proof.Gen.KernelIdeal.Frame
import proofs.«147952_j78262894068472_1_alg».proof.Proof.Gen.ReferenceIdeal
import proofs.«147952_j78262894068472_1_alg».proof.Proof.Gen.Pre_finite_inputs
import proofs.«147952_j78262894068472_1_alg».proof.Proof.Gen.KernelIdeal.Value
import proofs.«147952_j78262894068472_1_alg».proof.Proof.Gen.ReferenceIdeal.Run
import proofs.«147952_j78262894068472_1_alg».proof.Proof.Gen.ReferenceIdeal.Read
import proofs.«147952_j78262894068472_1_alg».proof.Proof.Spec
import proofs.«147952_j78262894068472_1_alg».proof.Proof.RefValue
import proofs.«147952_j78262894068472_1_alg».proof.Proof.Whole
import Idealize.ShloMosaic.Adequacy
import Idealize.ShloMosaic.Init

noncomputable section

namespace Cert.Proof

open Idealize.ShloMosaic Idealize.SL.Sem Cert.GatedState

/-- The word-level kernel runs and keeps its arguments: its whole frame is generated. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- The reference is a straight line of host operations: its run gives its frame. -/
theorem frame_ri : Cert.frame_ReferenceIdeal := fun m ρ _ =>
  (θ_run Cert.ReferenceIdeal.defs _ _).mono (fun _ h c => (h c).2.2) (Cert.ReferenceIdeal.Value.run (F := Ideal) m ρ)

/-- Over the extended reals both programs end with the two results at the specification's functions of the arguments:
    the kernel tile by tile, the reference operation by operation; arguments that agree give equal results. -/
theorem algebraic : Cert.algebraic_KernelIdeal_ReferenceIdeal := by
  intro m ρ m' ρ' _ hagree
  refine ⟨fun c => outAll (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), fun c => lastAll (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), Cert.KernelIdeal.Whole.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  refine ⟨((h c).1.trans ((Cert.ReferenceIdeal.Read.val_main_v53_eq _ _ _ _ _ _ _ _ _ _ _).trans (Cert.ReferenceIdeal.RefValue.out_eq _ _ _ _ _ _ _ _ _ _ _))).trans ?_,
    ((h c).2.1.trans ((Cert.ReferenceIdeal.Read.val_main_v55_eq _ _ _ _ _ _ _ _ _ _).trans (Cert.ReferenceIdeal.RefValue.last_eq _ _ _ _ _ _ _ _ _ _))).trans ?_, (h c).2.2⟩
  · rw [a0, a1, a2, a3, a4, a5, a6, a7, a8, a9, a10]
  · rw [a0, a1, a2, a3, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
